-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x256000 : Shape := ⟨3, ![2, 64, 256000]⟩
abbrev S64x256000 : Shape := ⟨2, ![64, 256000]⟩
abbrev S_ : Shape := ⟨0, ![]⟩

class Facts : Prop where
  bcast_S_S2x64x256000 : S_.BroadcastsInDim S2x64x256000 (![] : Fin 0 → Fin S2x64x256000.rank)
  reducesTo_S2x64x256000_S_d0_1_2 : S2x64x256000.ReducesTo [0, 1, 2] S_
  h_S_ : 0 < S_.numel
  bcast_S_S64x256000 : S_.BroadcastsInDim S64x256000 (![] : Fin 0 → Fin S64x256000.rank)
  reducesTo_S64x256000_S_d0_1 : S64x256000.ReducesTo [0, 1] S_

variable [Facts]

def fn {F : FTy → Type} [FloatOps F] (main_arg0 : FVec F S2x64x256000 .f32) (main_arg1 : FVec F S64x256000 .f32) (main_arg2 : FVec F S64x256000 .f32) : IVec S_ 1 :=
  let main_v0 : FVec F S2x64x256000 .f32 := Host.absf main_arg0
  let main_cst : FVec F S_ .f32 := constant S_ .f32 0x7F800000#32
  let main_v1 : FVec F S2x64x256000 .f32 := broadcastInDim S2x64x256000 ![] bcast_S_S2x64x256000 main_cst
  let main_v2 : IVec S2x64x256000 1 := cmpf .olt main_v0 main_v1
  let main_c : IVec S_ 1 := constantI S_ 1 1#1
  let main_v3 : IVec S_ 1 := (fun x v => Host.reduce IntOp.andi x v reducesTo_S2x64x256000_S_d0_1_2 h_S_) main_v2 main_c
  let main_v4 : FVec F S64x256000 .f32 := Host.absf main_arg1
  let main_cst_0 : FVec F S_ .f32 := constant S_ .f32 0x7F800000#32
  let main_v5 : FVec F S64x256000 .f32 := broadcastInDim S64x256000 ![] bcast_S_S64x256000 main_cst_0
  let main_v6 : IVec S64x256000 1 := cmpf .olt main_v4 main_v5
  let main_c_1 : IVec S_ 1 := constantI S_ 1 1#1
  let main_v7 : IVec S_ 1 := (fun x v => Host.reduce IntOp.andi x v reducesTo_S64x256000_S_d0_1 h_S_) main_v6 main_c_1
  let main_v8 : IVec S_ 1 := andi main_v3 main_v7
  let main_v9 : FVec F S64x256000 .f32 := Host.absf main_arg2
  let main_cst_2 : FVec F S_ .f32 := constant S_ .f32 0x7F800000#32
  let main_v10 : FVec F S64x256000 .f32 := broadcastInDim S64x256000 ![] bcast_S_S64x256000 main_cst_2
  let main_v11 : IVec S64x256000 1 := cmpf .olt main_v9 main_v10
  let main_c_3 : IVec S_ 1 := constantI S_ 1 1#1
  let main_v12 : IVec S_ 1 := (fun x v => Host.reduce IntOp.andi x v reducesTo_S64x256000_S_d0_1 h_S_) main_v11 main_c_3
  let main_v13 : IVec S_ 1 := andi main_v8 main_v12
  main_v13
-- ==== Kernel.lean ====
abbrev S2x64x256000 : Shape := ⟨3, ![2, 64, 256000]⟩
abbrev S64x256000 : Shape := ⟨2, ![64, 256000]⟩
abbrev S1x64x256000 : Shape := ⟨3, ![1, 64, 256000]⟩
abbrev S64x8 : Shape := ⟨2, ![64, 8]⟩
abbrev S16x64000 : Shape := ⟨2, ![16, 64000]⟩
abbrev S16x8 : Shape := ⟨2, ![16, 8]⟩
abbrev S16 : Shape := ⟨1, ![16]⟩
abbrev S16x1 : Shape := ⟨2, ![16, 1]⟩
abbrev S64x1 : Shape := ⟨2, ![64, 1]⟩
abbrev S64 : Shape := ⟨1, ![64]⟩
abbrev S_ : Shape := ⟨0, ![]⟩

abbrev nBuf : Space → Nat
  | .hbm => 162
  | .vmem => 11
  | .smem => 0
  | _ => 0

abbrev hbmTy0_0 (i : Nat) : BufTy := match i % 128 with
  | 0 => ⟨S2x64x256000, .f32⟩
  | 1 => ⟨S64x256000, .f32⟩
  | 2 => ⟨S64x256000, .f32⟩
  | 3 => ⟨S1x64x256000, .f32⟩
  | 4 => ⟨S64x256000, .f32⟩
  | 5 => ⟨S1x64x256000, .f32⟩
  | 6 => ⟨S64x256000, .f32⟩
  | 7 => ⟨S64x8, .f32⟩
  | 8 => ⟨S64x1, .f32⟩
  | 9 => ⟨S64, .f32⟩
  | 10 => ⟨S64x1, .f32⟩
  | 11 => ⟨S64, .f32⟩
  | 12 => ⟨S64x1, .f32⟩
  | 13 => ⟨S64, .f32⟩
  | 14 => ⟨S64x1, .f32⟩
  | 15 => ⟨S64, .f32⟩
  | 16 => ⟨S64x1, .f32⟩
  | 17 => ⟨S64, .f32⟩
  | 18 => ⟨S64x1, .f32⟩
  | 19 => ⟨S64, .f32⟩
  | 20 => ⟨S64x1, .f32⟩
  | 21 => ⟨S64, .f32⟩
  | 22 => ⟨S64x1, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S64, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S64, .f32⟩
  | 62 => ⟨S64, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S_, .f32⟩
  | 94 => ⟨S64, .f32⟩
  | 95 => ⟨S64, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S64, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S64, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S2x64x256000, .f32⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | _ => ⟨S2x64x256000, .f32⟩

abbrev hbmTy (i : Nat) : BufTy := match i / 128 with
  | 0 => hbmTy0_0 i
  | 1 => hbmTy0_1 i
  | _ => ⟨S2x64x256000, .f32⟩

abbrev bufTy : (tb : Table) → Fin (tcTables nBuf tb) → BufTy
  | .hbm, ⟨i, _⟩ => hbmTy i
  | .local _ .vmem, ⟨0, _⟩ => ⟨S16x64000, .f32⟩
  | .local _ .vmem, ⟨1, _⟩ => ⟨S16x64000, .f32⟩
  | .local _ .vmem, ⟨2, _⟩ => ⟨S16x64000, .f32⟩
  | .local _ .vmem, ⟨3, _⟩ => ⟨S16x64000, .f32⟩
  | .local _ .vmem, ⟨4, _⟩ => ⟨S16x64000, .f32⟩
  | .local _ .vmem, ⟨5, _⟩ => ⟨S16x64000, .f32⟩
  | .local _ .vmem, ⟨6, _⟩ => ⟨S16x64000, .f32⟩
  | .local _ .vmem, ⟨7, _⟩ => ⟨S16x64000, .f32⟩
  | .local _ .vmem, ⟨8, _⟩ => ⟨S16x8, .f32⟩
  | .local _ .vmem, ⟨9, _⟩ => ⟨S16x8, .f32⟩
  | .local _ .vmem, ⟨10, _⟩ => ⟨S16x8, .f32⟩
  | _, _ => ⟨S2x64x256000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_cst_15 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_16 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_17 : Ref sig .tc := ⟨.hbm, 107, rfl⟩
abbrev main_v86 : Ref sig .tc := ⟨.hbm, 108, rfl⟩
abbrev main_v87 : Ref sig .tc := ⟨.hbm, 109, rfl⟩
abbrev main_cst_18 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_19 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_cst_22 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_23 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_24 : Ref sig .tc := ⟨.hbm, 138, rfl⟩
abbrev main_v110 : Ref sig .tc := ⟨.hbm, 139, rfl⟩
abbrev main_v111 : Ref sig .tc := ⟨.hbm, 140, rfl⟩
abbrev main_cst_25 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_26 : Ref sig .tc := ⟨.hbm, 146, rfl⟩
abbrev main_v116 : Ref sig .tc := ⟨.hbm, 147, rfl⟩
abbrev main_v117 : Ref sig .tc := ⟨.hbm, 148, rfl⟩
abbrev main_cst_27 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_28 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_29 : Ref sig .tc := ⟨.hbm, 157, rfl⟩
abbrev main_v124 : Ref sig .tc := ⟨.hbm, 158, rfl⟩
abbrev main_v125 : Ref sig .tc := ⟨.hbm, 159, rfl⟩
abbrev main_cst_30 : Ref sig .tc := ⟨.hbm, 160, rfl⟩
abbrev main_v126 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x64x256000_S1x64x256000_0_0_0 : S2x64x256000.Slices ![0, 0, 0] S1x64x256000
  shapeCasts_S1x64x256000_S64x256000 : S1x64x256000.ShapeCasts S64x256000
  slices_S2x64x256000_S1x64x256000_1_0_0 : S2x64x256000.Slices ![1, 0, 0] S1x64x256000
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S16x64000_S16x64000_0_0 : ∀ a, (![0, 0] : Fin 2 → Nat) a + S16x64000.size a ≤ S16x64000.size a
  h_S16x64000 : 0 < S16x64000.numel
  shapeCasts_S16x64000_S16x64000 : S16x64000.ShapeCasts S16x64000
  reduces_S16x64000_S16 : S16x64000.Reduces [1] S16
  shapeCasts_S16_S16x1 : S16.ShapeCasts S16x1
  concatenates_S16x1_S16x1_S16x1_S16x1_S16x1_S16x1_S16x1_S16x1_S16x8_d1 : Shape.Concatenates [S16x1, S16x1, S16x1, S16x1, S16x1, S16x1, S16x1, S16x1] S16x8 1
  slices_S64x8_S64x1_0_0 : S64x8.Slices ![0, 0] S64x1
  shapeCasts_S64x1_S64 : S64x1.ShapeCasts S64
  slices_S64x8_S64x1_0_1 : S64x8.Slices ![0, 1] S64x1
  slices_S64x8_S64x1_0_2 : S64x8.Slices ![0, 2] S64x1
  slices_S64x8_S64x1_0_3 : S64x8.Slices ![0, 3] S64x1
  slices_S64x8_S64x1_0_4 : S64x8.Slices ![0, 4] S64x1
  slices_S64x8_S64x1_0_5 : S64x8.Slices ![0, 5] S64x1
  slices_S64x8_S64x1_0_6 : S64x8.Slices ![0, 6] S64x1
  slices_S64x8_S64x1_0_7 : S64x8.Slices ![0, 7] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64000.size a ≤ S64x256000.size a
  hwx0_0 : ∀ i : grid0.Coords, EltTy.bits .f32 = 32 ∨ (Rect.block (s := S64x256000) S16x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64000.size a ≤ S64x256000.size a
  hwx0_1 : ∀ i : grid0.Coords, EltTy.bits .f32 = 32 ∨ (Rect.block (s := S64x256000) S16x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64000.size a ≤ S64x256000.size a
  hwx0_2 : ∀ i : grid0.Coords, EltTy.bits .f32 = 32 ∨ (Rect.block (s := S64x256000) S16x64000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64000.size a ≤ S64x256000.size a
  hwx0_3 : ∀ i : grid0.Coords, EltTy.bits .f32 = 32 ∨ (Rect.block (s := S64x256000) S16x64000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S64x8.size a
  hwx0_4 : ∀ i : grid0.Coords, EltTy.bits .f32 = 32 ∨ (Rect.block (s := S64x8) S16x8.size (cc0_transform_4 i) (hinb0_4 i)).WholeWords (EltTy.packing .f32)

variable [Facts₀]

abbrev win0_0 : Pipeline.Window sig grid0 :=
  Pipeline.Window.ofSpec (Memref.whole main_v1) S16x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x64000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x64000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x64x256000 : Shape := ⟨3, ![2, 64, 256000]⟩
abbrev S64x256000 : Shape := ⟨2, ![64, 256000]⟩
abbrev S_ : Shape := ⟨0, ![]⟩
abbrev S1x64x256000 : Shape := ⟨3, ![1, 64, 256000]⟩
abbrev S2x64 : Shape := ⟨2, ![2, 64]⟩
abbrev S2x64x1 : Shape := ⟨3, ![2, 64, 1]⟩
abbrev S64 : Shape := ⟨1, ![64]⟩

abbrev nBuf : Space → Nat
  | .hbm => 92
  | .vmem => 0
  | .smem => 0
  | _ => 0

abbrev bufTy : (tb : Table) → Fin (tcTables nBuf tb) → BufTy
  | .hbm, ⟨0, _⟩ => ⟨S2x64x256000, .f32⟩
  | .hbm, ⟨1, _⟩ => ⟨S64x256000, .f32⟩
  | .hbm, ⟨2, _⟩ => ⟨S64x256000, .f32⟩
  | .hbm, ⟨3, _⟩ => ⟨S_, .f32⟩
  | .hbm, ⟨4, _⟩ => ⟨S1x64x256000, .f32⟩
  | .hbm, ⟨5, _⟩ => ⟨S1x64x256000, .f32⟩
  | .hbm, ⟨6, _⟩ => ⟨S2x64x256000, .f32⟩
  | .hbm, ⟨7, _⟩ => ⟨S2x64x256000, .f32⟩
  | .hbm, ⟨8, _⟩ => ⟨S2x64x256000, .f32⟩
  | .hbm, ⟨9, _⟩ => ⟨S_, .f32⟩
  | .hbm, ⟨10, _⟩ => ⟨S2x64, .f32⟩
  | .hbm, ⟨11, _⟩ => ⟨S2x64x1, .f32⟩
  | .hbm, ⟨12, _⟩ => ⟨S2x64x1, .f32⟩
  | .hbm, ⟨13, _⟩ => ⟨S2x64x1, .f32⟩
  | .hbm, ⟨14, _⟩ => ⟨S2x64x256000, .f32⟩
  | .hbm, ⟨15, _⟩ => ⟨S_, .f32⟩
  | .hbm, ⟨16, _⟩ => ⟨S2x64, .f32⟩
  | .hbm, ⟨17, _⟩ => ⟨S2x64x1, .f32⟩
  | .hbm, ⟨18, _⟩ => ⟨S2x64x1, .f32⟩
  | .hbm, ⟨19, _⟩ => ⟨S2x64x1, .f32⟩
  | .hbm, ⟨20, _⟩ => ⟨S2x64x1, .f32⟩
  | .hbm, ⟨21, _⟩ => ⟨S2x64x256000, .f32⟩
  | .hbm, ⟨22, _⟩ => ⟨S2x64x256000, .f32⟩
  | .hbm, ⟨23, _⟩ => ⟨S2x64x256000, .f32⟩
  | .hbm, ⟨24, _⟩ => ⟨S2x64x256000, .f32⟩
  | .hbm, ⟨25, _⟩ => ⟨S_, .f32⟩
  | .hbm, ⟨26, _⟩ => ⟨S2x64, .f32⟩
  | .hbm, ⟨27, _⟩ => ⟨S2x64, .f32⟩
  | .hbm, ⟨28, _⟩ => ⟨S2x64, .f32⟩
  | .hbm, ⟨29, _⟩ => ⟨S2x64x256000, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S2x64, .f32⟩
  | .hbm, ⟨35, _⟩ => ⟨S2x64, .f32⟩
  | .hbm, ⟨36, _⟩ => ⟨S_, .f32⟩
  | .hbm, ⟨37, _⟩ => ⟨S2x64, .f32⟩
  | .hbm, ⟨38, _⟩ => ⟨S2x64, .f32⟩
  | .hbm, ⟨39, _⟩ => ⟨S_, .f32⟩
  | .hbm, ⟨40, _⟩ => ⟨S2x64, .f32⟩
  | .hbm, ⟨41, _⟩ => ⟨S2x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S2x64x256000, .f32⟩
  | .hbm, ⟨48, _⟩ => ⟨S_, .f32⟩
  | .hbm, ⟨49, _⟩ => ⟨S2x64, .f32⟩
  | .hbm, ⟨50, _⟩ => ⟨S2x64x1, .f32⟩
  | .hbm, ⟨51, _⟩ => ⟨S2x64x1, .f32⟩
  | .hbm, ⟨52, _⟩ => ⟨S2x64x1, .f32⟩
  | .hbm, ⟨53, _⟩ => ⟨S2x64x256000, .f32⟩
  | .hbm, ⟨54, _⟩ => ⟨S_, .f32⟩
  | .hbm, ⟨55, _⟩ => ⟨S2x64, .f32⟩
  | .hbm, ⟨56, _⟩ => ⟨S2x64x1, .f32⟩
  | .hbm, ⟨57, _⟩ => ⟨S2x64x1, .f32⟩
  | .hbm, ⟨58, _⟩ => ⟨S2x64x1, .f32⟩
  | .hbm, ⟨59, _⟩ => ⟨S2x64x1, .f32⟩
  | .hbm, ⟨60, _⟩ => ⟨S2x64x256000, .f32⟩
  | .hbm, ⟨61, _⟩ => ⟨S2x64x256000, .f32⟩
  | .hbm, ⟨62, _⟩ => ⟨S2x64x256000, .f32⟩
  | .hbm, ⟨63, _⟩ => ⟨S2x64x256000, .f32⟩
  | .hbm, ⟨64, _⟩ => ⟨S_, .f32⟩
  | .hbm, ⟨65, _⟩ => ⟨S2x64, .f32⟩
  | .hbm, ⟨66, _⟩ => ⟨S2x64, .f32⟩
  | .hbm, ⟨67, _⟩ => ⟨S2x64, .f32⟩
  | .hbm, ⟨68, _⟩ => ⟨S2x64x256000, .f32⟩
  | .hbm, ⟨69, _⟩ => ⟨S_, .f32⟩
  | .hbm, ⟨70, _⟩ => ⟨S2x64, .f32⟩
  | .hbm, ⟨71, _⟩ => ⟨S2x64, .f32⟩
  | .hbm, ⟨72, _⟩ => ⟨S2x64, .f32⟩
  | .hbm, ⟨73, _⟩ => ⟨S2x64, .f32⟩
  | .hbm, ⟨74, _⟩ => ⟨S2x64, .f32⟩
  | .hbm, ⟨75, _⟩ => ⟨S_, .f32⟩
  | .hbm, ⟨76, _⟩ => ⟨S2x64, .f32⟩
  | .hbm, ⟨77, _⟩ => ⟨S2x64, .f32⟩
  | .hbm, ⟨78, _⟩ => ⟨S_, .f32⟩
  | .hbm, ⟨79, _⟩ => ⟨S2x64, .f32⟩
  | .hbm, ⟨80, _⟩ => ⟨S2x64, .f32⟩
  | .hbm, ⟨81, _⟩ => ⟨S_, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S2x64x256000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  bcast_S64x256000_S1x64x256000_1_2 : S64x256000.BroadcastsInDim S1x64x256000 (![1, 2] : Fin 2 → Fin S1x64x256000.rank)
  concatenates_S1x64x256000_S1x64x256000_S2x64x256000_d0 : Shape.Concatenates [S1x64x256000, S1x64x256000] S2x64x256000 0
  reducesTo_S2x64x256000_S2x64_d2 : S2x64x256000.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x256000_0_1_2 : S2x64x1.BroadcastsInDim S2x64x256000 (![0, 1, 2] : Fin 3 → Fin S2x64x256000.rank)
  bcast_S_S2x64 : S_.BroadcastsInDim S2x64 (![] : Fin 0 → Fin S2x64.rank)
  reducesTo_S2x64_S64_d0 : S2x64.ReducesTo [0] S64
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KernelKit.lean ====
/-
  The launch side of `Kernel`'s frame: @main is four host operations (the two halves of the first argument sliced and
  reshaped into arrays of their own), the region, and 154 host operations that read the region's result and write fresh
  buffers only. Stated here: the contents the region finds (`V`), @main as "the region continued by the later lines",
  that the later lines touch nothing but the pipeline's arrays and the buffers that bypass the region, allocate nothing
  and write no array of the pipeline, that no line of @main writes an argument, each input window's block at a grid
  point, the two branch conditions of the body in closed form over the grid (the accumulator is reset where the second
  grid coordinate is 0, the output block stored where it is 3), and where the output window is idle.
-/
import proofs.«105792_j65670049956214_1_alg».proof.Proof.Gen.Kernel.Launch
import proofs.«105792_j65670049956214_1_alg».proof.Proof.Gen.Kernel.Skeleton
import proofs.«105792_j65670049956214_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  repeat' (first | exact rfl | refine ⟨rfl, ?_⟩)

set_option maxRecDepth 200000 in
/-- @main reduces to the region continued by the later lines, the buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- Each later line writes its own result buffer only, and none of those is an array of the pipeline. -/
theorem hostOps1_keeps : (hostOps1 : List (HloOp τ sig (Elt F))).Forall fun op =>
    ∀ w, Proc.devRef .tc (Pipeline.arrRef spec0 w) ∉ op.writes := by
  have one : ∀ (op : HloOp τ sig (Elt F)) (r : Ref sig .tc), op.writes = {Proc.devRef .tc r} → (∀ w, Pipeline.arrRef spec0 w ≠ r) →
      ∀ w, Proc.devRef .tc (Pipeline.arrRef spec0 w) ∉ op.writes := fun op r hw hr w => by
    rw [hw, Finset.mem_singleton]; exact StableHlo.devRef_ne_of_ne (hr w)
  repeat' (first | exact one _ _ rfl (by decide) | refine ⟨one _ _ rfl (by decide), ?_⟩)
set_option maxHeartbeats 8000000 in
/-- Nor does any of them write the first argument. -/
theorem hostOps1_keeps_arg0 : (hostOps1 : List (HloOp τ sig (Elt F))).Forall fun op =>
    Proc.devRef .tc main_arg0 ∉ op.writes := by
  have one : ∀ (op : HloOp τ sig (Elt F)) (r : Ref sig .tc), op.writes = {Proc.devRef .tc r} → main_arg0 ≠ r →
      Proc.devRef .tc main_arg0 ∉ op.writes := fun op r hw hr => by
    rw [hw, Finset.mem_singleton]; exact StableHlo.devRef_ne_of_ne hr
  repeat' (first | exact one _ _ rfl (by decide) | refine ⟨one _ _ rfl (by decide), ?_⟩)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No later line writes the first argument (which no window stages): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [show ([hostOps1] : List (List (HloOp τ sig (Elt F)))).flatten = hostOps1 from List.append_nil _]
  rw [StableHlo.after_of_forall_not_mem (b := Proc.devRef .tc main_arg0) _ _ (List.forall_iff_forall_mem.mp hostOps1_keeps_arg0),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (each is fetched at every point), for any
    proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments end as launched: the second and third are input windows' arrays (an input's array after the
    run is its entry contents), the first is staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    ((h c).1 2).trans (((dats 0 c).arrAt_in 2 rfl _).trans ((hA c 2).trans (V_main_arg1 m c))),
    ((h c).1 3).trans (((dats 0 c).arrAt_in 3 rfl _).trans ((hA c 3).trans (V_main_arg2 m c)))⟩) h

/-! ## The body's branch conditions -/

/-- The accumulator is reset where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output block is stored where the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S16x8 .f32 := (Memref.whole cc0_stg4_0 : Memref sig .tc .vmem S16x8 .f32).view
abbrev ms0_0 (t : Fin cfg0.N) : Memref sig .tc .vmem S16x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x8 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S16x8 .f32 := Memref.whole cc0_scratch0
abbrev VS0_0 : View sig .tc .vmem S16x8 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
/-
  The kernel body of `Kernel` at a grid point where the accumulator is reset and the output block is not stored (second
  grid coordinate 0): on whole staging memrefs holding the four input blocks, the output's buffer at any contents (handed
  back untouched) and the accumulator at anything, the body runs to the end leaving the inputs as they were and the
  accumulator with the pieces its two stores wrote (the zero vector, then the zero vector plus the block's eight sums).
-/
import proofs.«105792_j65670049956214_1_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i)
    (x0 x1 x2 x3 : Vec F S16x64000 .f32) :
    Σ' (L4 : List (View.Piece (Elt F) S16x8 .f32)), { LS0 : List (View.Piece (Elt F) S16x8 .f32) //
      ∀ (xi4 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨[], ?_, fun xi4 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KernelRunB.lean ====
/-
  The kernel body of `Kernel` at a grid point where the accumulator is neither reset nor the output block stored (second
  grid coordinate 1 or 2): the accumulator comes in at what the point before left and goes out with one piece written,
  its contents plus the block's eight sums; the output's buffer is handed back untouched.
-/
import proofs.«105792_j65670049956214_1_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i)
    (x0 x1 x2 x3 : Vec F S16x64000 .f32) (xs0 : Vec F S16x8 .f32) :
    Σ' (L4 : List (View.Piece (Elt F) S16x8 .f32)), { LS0 : List (View.Piece (Elt F) S16x8 .f32) //
      ∀ (xi4 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨[], ?_, fun xi4 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KernelRunC.lean ====
/-
  The kernel body of `Kernel` at a grid point where the output block is stored (second grid coordinate 3): the
  accumulator comes in at what the point before left and goes out with its contents plus the block's eight sums; the
  output's buffer, at anything before, goes out with one piece written: the accumulator's final contents.
-/
import proofs.«105792_j65670049956214_1_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i)
    (x0 x1 x2 x3 : Vec F S16x64000 .f32) (xs0 : Vec F S16x8 .f32) :
    Σ' (L4 : List (View.Piece (Elt F) S16x8 .f32)), { LS0 : List (View.Piece (Elt F) S16x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KernelFrame.lean ====
/-
  The frame of `Kernel`: what the output window's staging buffer and the accumulator hold after the body at each grid
  point (by recursion on the point: the accumulator is reset at the points whose second coordinate is 0, added to at every
  point, and copied into the output block at the points whose second coordinate is 3), the region's invariant (the
  accumulator at what the point before left), the pipeline's proof data, the body obligation at a generic point, and the
  run of @main: every weakly fair execution terminates with the pipeline's arrays at what the proof data compute and
  every other buffer as the later host lines leave it. The arguments end unchanged.
-/
import proofs.«105792_j65670049956214_1_alg».proof.Proof.KernelRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) : Vec F S16x8 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)
theorem scover0_A_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) (y : S16x8.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S16x8.size (by sl_kernel_rfl) y
def sout0_A_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) : Vec F S16x8 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) : Vec F S16x8 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)
theorem scover0_B_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) (y : S16x8.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S16x8.size (by sl_kernel_rfl) y
def sout0_B_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) : Vec F S16x8 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) (y : S16x8.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S16x8.size (by sl_kernel_rfl) y
def out0_C_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) : Vec F S16x8 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) (y : S16x8.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S16x8.size (by sl_kernel_rfl) y
def sout0_C_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) : Vec F S16x8 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output's buffer and the accumulator hold after each point -/

/-- After the body at position `n`: (the output window's staging buffer, the accumulator). -/
def outsAt0 (c : Dev nD) : (n : ℕ) → n < cfg0.N → Vec F S16x8 .f32 × Vec F S16x8 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 16 := lt_of_lt_of_eq t.isLt (show cfg0.N = 16 from N_0)
  by_cases h0 : t.val % 4 = 0
  · by_cases h1 : t.val % 4 = 3
    · exfalso; omega
    · rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxRecDepth 200000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealKit.lean ====
/-
  The launch side of `KernelIdeal`'s frame: @main is four host operations (the two halves of the first argument sliced and
  reshaped into arrays of their own), the region, and 154 host operations that read the region's result and write fresh
  buffers only. Stated here: the contents the region finds (`V`), @main as "the region continued by the later lines",
  that the later lines touch nothing but the pipeline's arrays and the buffers that bypass the region, allocate nothing
  and write no array of the pipeline, that no line of @main writes an argument, each input window's block at a grid
  point, the two branch conditions of the body in closed form over the grid (the accumulator is reset where the second
  grid coordinate is 0, the output block stored where it is 3), and where the output window is idle.
-/
import proofs.«105792_j65670049956214_1_alg».proof.Proof.Gen.KernelIdeal.Launch
import proofs.«105792_j65670049956214_1_alg».proof.Proof.Gen.KernelIdeal.Skeleton
import proofs.«105792_j65670049956214_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  repeat' (first | exact rfl | refine ⟨rfl, ?_⟩)

set_option maxRecDepth 200000 in
/-- @main reduces to the region continued by the later lines, the buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- Each later line writes its own result buffer only, and none of those is an array of the pipeline. -/
theorem hostOps1_keeps : (hostOps1 : List (HloOp τ sig (Elt F))).Forall fun op =>
    ∀ w, Proc.devRef .tc (Pipeline.arrRef spec0 w) ∉ op.writes := by
  have one : ∀ (op : HloOp τ sig (Elt F)) (r : Ref sig .tc), op.writes = {Proc.devRef .tc r} → (∀ w, Pipeline.arrRef spec0 w ≠ r) →
      ∀ w, Proc.devRef .tc (Pipeline.arrRef spec0 w) ∉ op.writes := fun op r hw hr w => by
    rw [hw, Finset.mem_singleton]; exact StableHlo.devRef_ne_of_ne (hr w)
  repeat' (first | exact one _ _ rfl (by decide) | refine ⟨one _ _ rfl (by decide), ?_⟩)
set_option maxHeartbeats 8000000 in
/-- Nor does any of them write the first argument. -/
theorem hostOps1_keeps_arg0 : (hostOps1 : List (HloOp τ sig (Elt F))).Forall fun op =>
    Proc.devRef .tc main_arg0 ∉ op.writes := by
  have one : ∀ (op : HloOp τ sig (Elt F)) (r : Ref sig .tc), op.writes = {Proc.devRef .tc r} → main_arg0 ≠ r →
      Proc.devRef .tc main_arg0 ∉ op.writes := fun op r hw hr => by
    rw [hw, Finset.mem_singleton]; exact StableHlo.devRef_ne_of_ne hr
  repeat' (first | exact one _ _ rfl (by decide) | refine ⟨one _ _ rfl (by decide), ?_⟩)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No later line writes the first argument (which no window stages): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [show ([hostOps1] : List (List (HloOp τ sig (Elt F)))).flatten = hostOps1 from List.append_nil _]
  rw [StableHlo.after_of_forall_not_mem (b := Proc.devRef .tc main_arg0) _ _ (List.forall_iff_forall_mem.mp hostOps1_keeps_arg0),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (each is fetched at every point), for any
    proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments end as launched: the second and third are input windows' arrays (an input's array after the
    run is its entry contents), the first is staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    ((h c).1 2).trans (((dats 0 c).arrAt_in 2 rfl _).trans ((hA c 2).trans (V_main_arg1 m c))),
    ((h c).1 3).trans (((dats 0 c).arrAt_in 3 rfl _).trans ((hA c 3).trans (V_main_arg2 m c)))⟩) h

/-! ## The body's branch conditions -/

/-- The accumulator is reset where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output block is stored where the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S16x8 .f32 := (Memref.whole cc0_stg4_0 : Memref sig .tc .vmem S16x8 .f32).view
abbrev ms0_0 (t : Fin cfg0.N) : Memref sig .tc .vmem S16x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x8 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S16x8 .f32 := Memref.whole cc0_scratch0
abbrev VS0_0 : View sig .tc .vmem S16x8 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdealRunA.lean ====
/-
  The kernel body of `KernelIdeal` at a grid point where the accumulator is reset and the output block is not stored (second
  grid coordinate 0): on whole staging memrefs holding the four input blocks, the output's buffer at any contents (handed
  back untouched) and the accumulator at anything, the body runs to the end leaving the inputs as they were and the
  accumulator with the pieces its two stores wrote (the zero vector, then the zero vector plus the block's eight sums).
-/
import proofs.«105792_j65670049956214_1_alg».proof.Proof.KernelIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i)
    (x0 x1 x2 x3 : Vec F S16x64000 .f32) :
    Σ' (L4 : List (View.Piece (Elt F) S16x8 .f32)), { LS0 : List (View.Piece (Elt F) S16x8 .f32) //
      ∀ (xi4 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨[], ?_, fun xi4 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdealRunB.lean ====
/-
  The kernel body of `KernelIdeal` at a grid point where the accumulator is neither reset nor the output block stored (second
  grid coordinate 1 or 2): the accumulator comes in at what the point before left and goes out with one piece written,
  its contents plus the block's eight sums; the output's buffer is handed back untouched.
-/
import proofs.«105792_j65670049956214_1_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i)
    (x0 x1 x2 x3 : Vec F S16x64000 .f32) (xs0 : Vec F S16x8 .f32) :
    Σ' (L4 : List (View.Piece (Elt F) S16x8 .f32)), { LS0 : List (View.Piece (Elt F) S16x8 .f32) //
      ∀ (xi4 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨[], ?_, fun xi4 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdealRunC.lean ====
/-
  The kernel body of `KernelIdeal` at a grid point where the output block is stored (second grid coordinate 3): the
  accumulator comes in at what the point before left and goes out with its contents plus the block's eight sums; the
  output's buffer, at anything before, goes out with one piece written: the accumulator's final contents.
-/
import proofs.«105792_j65670049956214_1_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i)
    (x0 x1 x2 x3 : Vec F S16x64000 .f32) (xs0 : Vec F S16x8 .f32) :
    Σ' (L4 : List (View.Piece (Elt F) S16x8 .f32)), { LS0 : List (View.Piece (Elt F) S16x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdealFrame.lean ====
/-
  The frame of `KernelIdeal`: what the output window's staging buffer and the accumulator hold after the body at each grid
  point (by recursion on the point: the accumulator is reset at the points whose second coordinate is 0, added to at every
  point, and copied into the output block at the points whose second coordinate is 3), the region's invariant (the
  accumulator at what the point before left), the pipeline's proof data, the body obligation at a generic point, and the
  run of @main: every weakly fair execution terminates with the pipeline's arrays at what the proof data compute and
  every other buffer as the later host lines leave it. The arguments end unchanged.
-/
import proofs.«105792_j65670049956214_1_alg».proof.Proof.KernelIdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) : Vec F S16x8 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)
theorem scover0_A_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) (y : S16x8.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S16x8.size (by sl_kernel_rfl) y
def sout0_A_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) : Vec F S16x8 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) : Vec F S16x8 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)
theorem scover0_B_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) (y : S16x8.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S16x8.size (by sl_kernel_rfl) y
def sout0_B_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) : Vec F S16x8 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) (y : S16x8.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S16x8.size (by sl_kernel_rfl) y
def out0_C_4 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) : Vec F S16x8 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) (y : S16x8.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S16x8.size (by sl_kernel_rfl) y
def sout0_C_0 (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) : Vec F S16x8 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output's buffer and the accumulator hold after each point -/

/-- After the body at position `n`: (the output window's staging buffer, the accumulator). -/
def outsAt0 (c : Dev nD) : (n : ℕ) → n < cfg0.N → Vec F S16x8 .f32 × Vec F S16x8 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 16 := lt_of_lt_of_eq t.isLt (show cfg0.N = 16 from N_0)
  by_cases h0 : t.val % 4 = 0
  · by_cases h1 : t.val % 4 = 3
    · exfalso; omega
    · rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxRecDepth 200000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Payload.lean ====
import proofs.«105792_j65670049956214_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic
import Mathlib.Data.Fintype.BigOperators

/-!
# The kernel body's arithmetic read at an index, and a long sum cut into four blocks

At one grid point the kernel body holds four `[16, 64000]` blocks `v3 v5 v7 v8` and the `[16, 8]` accumulator `v34`.
The value it stores back is the accumulator plus, in column `k` of row `r`, the row sum `Σ_l x[r,l]·y[r,l]` of the
`k`-th of eight products `(x, y)` of the blocks: each product is summed along its lanes, the sum is viewed as a
`[16, 1]` column, and the eight columns are laid side by side. Read at `(r, k)` this is `pay3_apply`; the value stored is
that payload unchanged (`pay1_apply`), and the value a row block starts from is zero (`pay2_apply`).
`sum_blocks` cuts a sum over 256000 terms into four consecutive blocks of 64000.
-/

noncomputable section

open scoped BigOperators

namespace Cert.KernelIdeal.Payload

open Cert.KernelIdeal Cert.KernelIdeal.Gen Idealize.ShloMosaic Idealize.ShloMosaic.ValueIdx

/-! ## Layout steps of the payload, each read at an index -/

/-- A vector `[a]` cast to the column `[a, 1]` reads, at `(i, u)`, the vector at `i`: both positions are `i` in
row-major order, the unit coordinate `u` being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[16, 64000]` block, read at row `r`: the sum over the 64000 lanes of the block at `(r, l)`. -/
theorem rowSum_apply (src : FVec Ideal S16x64000 .f32) (hφ : FKind.Formats .f32)
    (hacc : (0x00000000#32 : BitVec 32) = 0x00000000#32) (r : Fin 16) :
    multiReduction (F := Ideal) .add [1] S16 src 0x00000000#32 reduces_S16x64000_S16 hφ hacc (ix1 r)
      = ∑ l : Fin 64000, src (ix2 r l) := by
  refine (Ideal.multiReduction_add_single src 0x00000000#32 reduces_S16x64000_S16 hφ hacc (ix1 r)).trans ?_
  refine Finset.sum_congr rfl fun l _ => congrArg src ?_
  funext c
  match c with
  | ⟨0, _⟩ => exact Fin.ext rfl
  | ⟨1, _⟩ => exact Fin.ext rfl

/-- Eight `[16, 1]` columns laid side by side along axis 1, read at `(r, k)`: column `k` at `(r, 0)`. -/
theorem concat8_apply {α : Type} (x0 x1 x2 x3 x4 x5 x6 x7 : S16x1.Idx → α)
    (h : Shape.Concatenates [S16x1, S16x1, S16x1, S16x1, S16x1, S16x1, S16x1, S16x1] S16x8 1) (r : Fin 16) (k : Fin 8) :
    concatenate S16x8 1 [⟨S16x1, x0⟩, ⟨S16x1, x1⟩, ⟨S16x1, x2⟩, ⟨S16x1, x3⟩, ⟨S16x1, x4⟩, ⟨S16x1, x5⟩, ⟨S16x1, x6⟩,
        ⟨S16x1, x7⟩] h (ix2 r k)
      = (![x0, x1, x2, x3, x4, x5, x6, x7] k) (ix2 r (0 : Fin 1)) :=
  concatenate_ofFn_unit_apply (t := S16x8) (s₁ := S16x1) 1 ![x0, x1, x2, x3, x4, x5, x6, x7] h rfl rfl (ix2 r k) k rfl
    (ix2 r (0 : Fin 1)) (fun b hb => match b with | ⟨0, _⟩ => rfl | ⟨1, _⟩ => absurd rfl hb)

/-- One column of the payload: the keepdims row sum of a product of two blocks, read at `(r, 0)`, is `Σ_l x[r,l]·y[r,l]`. -/
theorem col_apply (x y : FVec Ideal S16x64000 .f32) (r : Fin 16) :
    shapeCast S16x1 (multiReduction (F := Ideal) .add [1] S16 (mulf x y) 0x00000000#32 reduces_S16x64000_S16 (.inl rfl) rfl)
        shapeCasts_S16_S16x1 (ix2 r (0 : Fin 1))
      = ∑ l : Fin 64000, x (ix2 r l) * y (ix2 r l) :=
  (shapeCast_a_a1_apply _ shapeCasts_S16_S16x1 r 0).trans (rowSum_apply (mulf x y) (.inl rfl) rfl r)

/-! ## The payloads -/

/-- the eight products' row sums, column k of row r -/
def blockSum (v3 v5 v7 v8 : Vec Ideal S16x64000 .f32) (r : Fin 16) (k : Fin 8) : EReal :=
  match k with
  | 0 => ∑ l : Fin 64000, v3 (ix2 r l) * v3 (ix2 r l)
  | 1 => ∑ l : Fin 64000, v5 (ix2 r l) * v5 (ix2 r l)
  | 2 => ∑ l : Fin 64000, v7 (ix2 r l) * v7 (ix2 r l)
  | 3 => ∑ l : Fin 64000, v8 (ix2 r l) * v8 (ix2 r l)
  | 4 => ∑ l : Fin 64000, v3 (ix2 r l) * v7 (ix2 r l)
  | 5 => ∑ l : Fin 64000, v5 (ix2 r l) * v8 (ix2 r l)
  | 6 => ∑ l : Fin 64000, v5 (ix2 r l) * v7 (ix2 r l)
  | 7 => ∑ l : Fin 64000, v3 (ix2 r l) * v8 (ix2 r l)

variable (v3 v5 v7 v8 : Vec Ideal S16x64000 .f32) (r : Fin 16) in
/-- The eight columns of `blockSum`, one by one. -/
theorem blockSum_cols :
    blockSum v3 v5 v7 v8 r 0 = ∑ l : Fin 64000, v3 (ix2 r l) * v3 (ix2 r l) ∧
    blockSum v3 v5 v7 v8 r 1 = ∑ l : Fin 64000, v5 (ix2 r l) * v5 (ix2 r l) ∧
    blockSum v3 v5 v7 v8 r 2 = ∑ l : Fin 64000, v7 (ix2 r l) * v7 (ix2 r l) ∧
    blockSum v3 v5 v7 v8 r 3 = ∑ l : Fin 64000, v8 (ix2 r l) * v8 (ix2 r l) ∧
    blockSum v3 v5 v7 v8 r 4 = ∑ l : Fin 64000, v3 (ix2 r l) * v7 (ix2 r l) ∧
    blockSum v3 v5 v7 v8 r 5 = ∑ l : Fin 64000, v5 (ix2 r l) * v8 (ix2 r l) ∧
    blockSum v3 v5 v7 v8 r 6 = ∑ l : Fin 64000, v5 (ix2 r l) * v7 (ix2 r l) ∧
    blockSum v3 v5 v7 v8 r 7 = ∑ l : Fin 64000, v3 (ix2 r l) * v8 (ix2 r l) :=
  ⟨rfl, rfl, rfl, rfl, rfl, rfl, rfl, rfl⟩

/-- The accumulating payload at `(r, k)`: the accumulator there plus the `k`-th row sum of products of row `r`. -/
theorem pay3_apply (v3 v5 v7 v8 : Vec Ideal S16x64000 .f32) (v34 : Vec Ideal S16x8 .f32) (r : Fin 16) (k : Fin 8) :
    k0_pay3 (F := Ideal) v3 v5 v7 v8 v34 (ix2 r k) = v34 (ix2 r k) + blockSum v3 v5 v7 v8 r k := by
  unfold k0_pay3
  refine (addf_apply _ _ _).trans ?_
  refine congrArg (v34 (ix2 r k) + ·) ?_
  refine (concat8_apply _ _ _ _ _ _ _ _ _ r k).trans ?_
  rw [shapeCast_self v3, shapeCast_self v5]
  match k with
  | 0 => exact col_apply v3 v3 r
  | 1 => exact col_apply v5 v5 r
  | 2 => exact col_apply v7 v7 r
  | 3 => exact col_apply v8 v8 r
  | 4 => exact col_apply v3 v7 r
  | 5 => exact col_apply v5 v8 r
  | 6 => exact col_apply v5 v7 r
  | 7 => exact col_apply v3 v8 r

/-- The stored payload is the value it is given: a shape cast to the same shape. -/
theorem pay1_apply (v : FVec Ideal S16x8 .f32) : k0_pay1 (F := Ideal) v = v :=
  shapeCast_self v shapeCasts_S16x8_S16x8

/-- The reset payload is zero everywhere. -/
theorem pay2_apply (j : S16x8.Idx) : k0_pay2 (F := Ideal) j = 0 := by
  unfold k0_pay2
  rw [shapeCast_self]
  exact Ideal.ofBits_zero_f32

/-! ## A long sum in four blocks -/

/-- a sum over 256000 is the sum over 4 blocks of 64000 -/
theorem sum_blocks (f : Fin 256000 → EReal) :
    ∑ l : Fin 256000, f l = ∑ j : Fin 4, ∑ l' : Fin 64000, f ⟨j.val * 64000 + l'.val, by omega⟩ := by
  have e : 4 * 64000 = 256000 := rfl
  refine (Equiv.sum_comp ((finProdFinEquiv (m := 4) (n := 64000)).trans (finCongr e)) f).symm.trans ?_
  refine (Fintype.sum_prod_type _).trans ?_
  refine Finset.sum_congr rfl fun j _ => Finset.sum_congr rfl fun l' _ => congrArg f (Fin.ext ?_)
  show l'.val + 64000 * j.val = j.val * 64000 + l'.val
  omega

end Cert.KernelIdeal.Payload
-- ==== Proof.Spec.lean ====
/-
  The mathematics both programs compute, stated over plain extended reals and finite index types.

  One batch row of the loss: for a prediction sequence `p` and a target sequence `t` the scale-invariant
  signal-to-distortion ratio is  10 · log₁₀( (‖α t‖² + ε) / (‖p − α t‖² + ε) )  with  α = (⟨p,t⟩ + ε) / (‖t‖² + ε).
  The reference evaluates it from the sequences (`sdrR`); the kernel first reduces the row to the three sums
  ⟨p,p⟩, ⟨p,t⟩, ⟨t,t⟩ and evaluates the expanded form  ‖α t‖² = α²‖t‖²,  ‖p − α t‖² = ‖p‖² − 2α⟨p,t⟩ + α²‖t‖²  (`sdrK`).
  The row's score is the larger of the two speaker pairings' mean ratios; the loss is minus the mean of the 64 rows' scores.
-/
import Idealize.ShloMosaic.PureOps.Ideal

noncomputable section

namespace Cert.Spec

open Idealize.ShloMosaic

/-- The literals of both programs, as the float words they are printed with. -/
abbrev eps : EReal := Ideal.ofBits .f32 0x34000000#32     -- 2⁻²³
abbrev two : EReal := Ideal.ofBits .f32 0x40000000#32
abbrev half : EReal := Ideal.ofBits .f32 0x3F000000#32
abbrev ten : EReal := Ideal.ofBits .f32 0x41200000#32
abbrev ilog10 : EReal := Ideal.ofBits .f32 0x3EDE5BD9#32  -- the f32 nearest 1 / ln 10 (the same word on both sides)
abbrev zero : EReal := Ideal.ofBits .f32 0x00000000#32
abbrev c64 : EReal := Ideal.ofBits .f32 0x42800000#32

/-- The ratio from the three sums ⟨p,p⟩, ⟨p,t⟩, ⟨t,t⟩, in the kernel's order of operations. -/
def sdrK (pp pt tt : EReal) : EReal :=
  ten * (Ideal.log (Ideal.div
      ((Ideal.div (pt + eps) (tt + eps) * Ideal.div (pt + eps) (tt + eps)) * tt + eps)
      (((pp - (two * Ideal.div (pt + eps) (tt + eps)) * pt)
          + (Ideal.div (pt + eps) (tt + eps) * Ideal.div (pt + eps) (tt + eps)) * tt) + eps)) * ilog10)

/-- The scale α = (⟨p,t⟩ + ε) / (⟨t,t⟩ + ε) as the reference computes it (each sum started from the zero word). -/
def alphaR {ι : Type} [Fintype ι] (p t : ι → EReal) : EReal :=
  Ideal.div ((zero + ∑ l, p l * t l) + eps) ((zero + ∑ l, t l * t l) + eps)

/-- The ratio from the sequences, in the reference's order of operations. -/
def sdrR {ι : Type} [Fintype ι] (p t : ι → EReal) : EReal :=
  ten * (Ideal.log (Ideal.div
      ((zero + ∑ l, (alphaR p t * t l) * (alphaR p t * t l)) + eps)
      ((zero + ∑ l, (p l - alphaR p t * t l) * (p l - alphaR p t * t l)) + eps)) * ilog10)

/-- The eight sums of a row, in the order the kernel lays them along its output's second axis. -/
def rowSums {ι : Type} [Fintype ι] (p0 p1 t1 t2 : ι → EReal) : Fin 8 → EReal :=
  ![∑ l, p0 l * p0 l, ∑ l, p1 l * p1 l, ∑ l, t1 l * t1 l, ∑ l, t2 l * t2 l,
    ∑ l, p0 l * t1 l, ∑ l, p1 l * t2 l, ∑ l, p1 l * t1 l, ∑ l, p0 l * t2 l]

/-- A row's score from its eight sums (the kernel's program after the reduction). -/
def rowK (S : Fin 8 → EReal) : EReal :=
  max ((sdrK (S 0) (S 4) (S 2) + sdrK (S 1) (S 5) (S 3)) * half)
      ((sdrK (S 1) (S 6) (S 2) + sdrK (S 0) (S 7) (S 3)) * half)

/-- A row's score from its four sequences (the reference). -/
def rowR {ι : Type} [Fintype ι] (p0 p1 t1 t2 : ι → EReal) : EReal :=
  max (Ideal.div (zero + (sdrR p0 t1 + sdrR p1 t2)) two)
      (Ideal.div (zero + (sdrR p1 t1 + sdrR p0 t2)) two)

/-- The loss from the 64 rows' scores: minus their sum (started from the zero word), over 64. -/
def loss (X : Fin 64 → EReal) : EReal :=
  Ideal.div (-(zero + ∑ b, X b)) c64

end Cert.Spec

end
-- ==== Proof.KernelValue.lean ====
/-
  What the kernel program's pallas_call leaves in its result array: entry (b, k) of the [64, 8] array is the k-th of the
  eight sums of products of batch row b over the whole length 256000.

  The grid is 4 row blocks of 16 rows by 4 length-blocks of 64000. At each point the body adds, into a [16, 8]
  accumulator, the eight sums of products over the point's four [16, 64000] blocks; the accumulator is reset to zero at
  the first length-block of a row block and copied into the output block at the last. So after the last length-block of
  row block q the output block holds, at (r, k), the sum over the four length-blocks of the k-th block sum of row r; a
  block's entry (r, l) at length-block j is the array's entry (16 q + r, 64000 j + l), and a sum over 256000 terms is the
  sum of its four consecutive blocks of 64000. Each row is written back by exactly the last point of its row block, so
  the blocks written back cover the result array.
-/
import proofs.«105792_j65670049956214_1_alg».proof.Proof.KernelIdealFrame
import proofs.«105792_j65670049956214_1_alg».proof.Proof.Payload
import proofs.«105792_j65670049956214_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Payload

section Pieces
variable {F : FTy → Type} [FloatOps F]

theorem hz00 : (![0, 0] : Fin 2 → Nat) = fun _ => 0 := funext fun a => by fin_cases a <;> rfl

/-- Away from the first and last length-blocks the accumulator ends holding the stored payload: the accumulator it
    found plus this point's eight block sums. -/
theorem sout_B_eq (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : ¬cond0_1 i) (x0 x1 x2 x3 : Vec F S16x64000 .f32) (xs0 : Vec F S16x8 .f32) :
    sout0_B_0 c i arg2 harg2 arg3 harg3 arg4 harg4 arg5 harg5 arg6 harg6 arg7 harg7 hc0 hc1 x0 x1 x2 x3 xs0 = k0_pay1 (k0_pay3 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz00]
  simp only [View.readAt_eq_ld, harg2.read_unread, harg3.read_unread, harg4.read_unread, harg5.read_unread, harg6.read_unread, harg7.read_unread, View.ld_unit_zero (S := S16x64000) hz00, View.ld_unit_zero (S := S16x8) hz00, shapeCast_self]

/-- At the last length-block the accumulator ends holding the same payload. -/
theorem sout_C_eq (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) :
    sout0_C_0 c i arg2 harg2 arg3 harg3 arg4 harg4 arg5 harg5 arg6 harg6 arg7 harg7 hc0 hc1 x0 x1 x2 x3 xs0 = k0_pay1 (k0_pay3 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz00]
  simp only [View.readAt_eq_ld, harg2.read_unread, harg3.read_unread, harg4.read_unread, harg5.read_unread, harg6.read_unread, harg7.read_unread, View.ld_unit_zero (S := S16x64000) hz00, View.ld_unit_zero (S := S16x8) hz00, shapeCast_self]

/-- At the last length-block the output block is the accumulator read back after its store. -/
theorem out_C_eq (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : ¬cond0_0 i) (hc1 : cond0_1 i) (x0 x1 x2 x3 : Vec F S16x64000 .f32) (xs0 : Vec F S16x8 .f32) :
    out0_C_4 c i arg2 harg2 arg3 harg3 arg4 harg4 arg5 harg5 arg6 harg6 arg7 harg7 hc0 hc1 x0 x1 x2 x3 xs0 = k0_pay1 (k0_pay3 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz00]
  simp only [View.readAt_eq_ld, harg2.read_unread, harg3.read_unread, harg4.read_unread, harg5.read_unread, harg6.read_unread, harg7.read_unread, View.ld_unit_zero (S := S16x64000) hz00, View.ld_unit_zero (S := S16x8) hz00, View.readCov_unit_zero (S := S16x8) _ hz00, shapeCast_self]

/-- At the first length-block the accumulator is reset to zero, read back and added to. -/
theorem sout_A_eq (c : Dev nD) (i : grid0.Coords) (arg2 : Memref sig .tc .vmem S16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x64000 .f32) (harg5 : arg5.IsWhole) (arg6 : Memref sig .tc .vmem S16x8 .f32) (harg6 : arg6.IsWhole) (arg7 : Memref sig .tc .vmem S16x8 .f32) (harg7 : arg7.IsWhole) (hc0 : cond0_0 i) (hc1 : ¬cond0_1 i) (x0 x1 x2 x3 : Vec F S16x64000 .f32) :
    sout0_A_0 c i arg2 harg2 arg3 harg3 arg4 harg4 arg5 harg5 arg6 harg6 arg7 harg7 hc0 hc1 x0 x1 x2 x3 = k0_pay1 (k0_pay3 x0 x1 x2 x3 k0_pay2) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x8) hz00, View.readCov_unit_zero (S := S16x8) _ hz00]
  simp only [View.readAt_eq_ld, harg2.read_unread, harg3.read_unread, harg4.read_unread, harg5.read_unread, harg6.read_unread, harg7.read_unread, View.ld_unit_zero (S := S16x64000) hz00, View.ld_unit_zero (S := S16x8) hz00, shapeCast_self]

end Pieces

section Value

variable (m : (ℓ : Loc nD τ sig) → Buf (Elt Ideal) ℓ)

/-! ## The accumulator, point by point -/

/-- The four input blocks at a grid point, at their literal type. -/
abbrev xb0 (c : Dev nD) (t : Fin cfg0.N) : Vec Ideal S16x64000 .f32 := iblk m c 0 t
abbrev xb1 (c : Dev nD) (t : Fin cfg0.N) : Vec Ideal S16x64000 .f32 := iblk m c 1 t
abbrev xb2 (c : Dev nD) (t : Fin cfg0.N) : Vec Ideal S16x64000 .f32 := iblk m c 2 t
abbrev xb3 (c : Dev nD) (t : Fin cfg0.N) : Vec Ideal S16x64000 .f32 := iblk m c 3 t

/-- The eight sums of products over the blocks of one grid point, at row `r` of the block and column `k`. -/
abbrev bsum (c : Dev nD) (t : Fin cfg0.N) (r : Fin 16) (k : Fin 8) : EReal :=
  blockSum (xb0 m c t) (xb1 m c t) (xb2 m c t) (xb3 m c t) r k

/-- The accumulator after the body at position `n`. -/
abbrev accAfter (c : Dev nD) (n : ℕ) (hn : n < cfg0.N) : Vec Ideal S16x8 .f32 := (outsAt0 m c n hn).2

theorem accAfter_congr (c : Dev nD) (u v : ℕ) (hu : u < cfg0.N) (hv : v < cfg0.N) (e : u = v) :
    accAfter m c u hu = accAfter m c v hv := by subst e; rfl

theorem bsum_congr (c : Dev nD) (t t' : Fin cfg0.N) (e : t.val = t'.val) (r : Fin 16) (k : Fin 8) :
    bsum m c t r k = bsum m c t' r k := by obtain rfl := Fin.ext e; rfl

/-- At the first length-block of a row block the accumulator holds that block's sums: zero plus them. -/
theorem acc_reset (c : Dev nD) (t : Fin cfg0.N) (h0 : t.val % 4 = 0) (r : Fin 16) (k : Fin 8) :
    accAfter m c t.val t.isLt (ix2 r k) = bsum m c t r k := by
  have h1 : ¬t.val % 4 = 3 := by omega
  show (outsAt0 m c t.val t.isLt).2 (ix2 r k) = _
  rw [outsAt0_A m c t h0 h1]
  dsimp only
  refine (congrFun (sout_A_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xb0 m c t) (xb1 m c t) (xb2 m c t) (xb3 m c t)) (ix2 r k)).trans ?_
  refine (congrFun (pay1_apply _) (ix2 r k)).trans ?_
  refine (pay3_apply _ _ _ _ _ r k).trans ?_
  rw [pay2_apply, zero_add]

/-- At every later length-block it holds what the point before left plus this block's sums. -/
theorem acc_step (c : Dev nD) (t : Fin cfg0.N) (h0 : ¬t.val % 4 = 0) (r : Fin 16) (k : Fin 8) :
    accAfter m c t.val t.isLt (ix2 r k)
      = accAfter m c (t.val - 1) (Nat.lt_of_le_of_lt (Nat.sub_le _ _) t.isLt) (ix2 r k) + bsum m c t r k := by
  show (outsAt0 m c t.val t.isLt).2 (ix2 r k) = _
  by_cases h1 : t.val % 4 = 3
  · rw [outsAt0_C m c t h0 h1]
    dsimp only
    refine (congrFun (sout_C_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xb0 m c t) (xb1 m c t) (xb2 m c t) (xb3 m c t) (accAfter m c (t.val - 1) (Nat.lt_of_le_of_lt (Nat.sub_le _ _) t.isLt))) (ix2 r k)).trans ?_
    refine (congrFun (pay1_apply _) (ix2 r k)).trans ?_
    exact pay3_apply _ _ _ _ _ r k
  · rw [outsAt0_B m c t h0 h1]
    dsimp only
    refine (congrFun (sout_B_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xb0 m c t) (xb1 m c t) (xb2 m c t) (xb3 m c t) (accAfter m c (t.val - 1) (Nat.lt_of_le_of_lt (Nat.sub_le _ _) t.isLt))) (ix2 r k)).trans ?_
    refine (congrFun (pay1_apply _) (ix2 r k)).trans ?_
    exact pay3_apply _ _ _ _ _ r k

/-- At the last length-block the output block holds the same. -/
theorem out_last (c : Dev nD) (t : Fin cfg0.N) (h3 : t.val % 4 = 3) (r : Fin 16) (k : Fin 8) :
    (outsAt0 m c t.val t.isLt).1 (ix2 r k)
      = accAfter m c (t.val - 1) (Nat.lt_of_le_of_lt (Nat.sub_le _ _) t.isLt) (ix2 r k) + bsum m c t r k := by
  have h0 : ¬t.val % 4 = 0 := by omega
  rw [outsAt0_C m c t h0 h3]
  dsimp only
  refine (congrFun (out_C_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (xb0 m c t) (xb1 m c t) (xb2 m c t) (xb3 m c t) (accAfter m c (t.val - 1) (Nat.lt_of_le_of_lt (Nat.sub_le _ _) t.isLt))) (ix2 r k)).trans ?_
  refine (congrFun (pay1_apply _) (ix2 r k)).trans ?_
  exact pay3_apply _ _ _ _ _ r k

/-! ## A row block's four length-blocks -/

/-- The grid point of row block `q` and length-block `j`. -/
abbrev pt (q : Fin 4) (j : ℕ) (hj : j < 4) : Fin cfg0.N :=
  ⟨4 * q.val + j, by rw [show cfg0.N = 16 from N_0]; omega⟩

/-- At the last length-block of row block `t / 4` the output block holds the sums over its four length-blocks. -/
theorem out_fold (c : Dev nD) (t : Fin cfg0.N) (h3 : t.val % 4 = 3) (q : Fin 4) (hq : t.val / 4 = q.val) (r : Fin 16) (k : Fin 8) :
    (outsAt0 m c t.val t.isLt).1 (ix2 r k) = ∑ j : Fin 4, bsum m c (pt q j.val j.isLt) r k := by
  have hN : cfg0.N = 16 := N_0
  have ht := t.isLt
  have e3 := out_last m c t h3 r k
  have e2 := acc_step m c ⟨t.val - 1, by omega⟩ (by dsimp only; omega) r k
  have e1 := acc_step m c ⟨t.val - 2, by omega⟩ (by dsimp only; omega) r k
  have e0 := acc_reset m c ⟨t.val - 3, by omega⟩ (by dsimp only; omega) r k
  dsimp only at e2 e1 e0
  rw [e3, e2, accAfter_congr m c (t.val - 1 - 1) (t.val - 2) _ (by omega) (by omega), e1,
    accAfter_congr m c (t.val - 2 - 1) (t.val - 3) _ (by omega) (by omega), e0, Fin.sum_univ_four]
  rw [bsum_congr m c ⟨t.val - 3, by omega⟩ (pt q 0 (by omega)) (by dsimp only; omega),
    bsum_congr m c ⟨t.val - 2, by omega⟩ (pt q 1 (by omega)) (by dsimp only; omega),
    bsum_congr m c ⟨t.val - 1, by omega⟩ (pt q 2 (by omega)) (by dsimp only; omega),
    bsum_congr m c t (pt q 3 (by omega)) (by dsimp only; omega)]
  rfl

/-! ## From blocks to the arrays -/

/-- Row `b` of each of the four arrays as the region finds them. -/
abbrev row0 (c : Dev nD) (b : Fin 64) : Fin 256000 → EReal := fun l => V m c main_v1 (ix2 b l)
abbrev row1 (c : Dev nD) (b : Fin 64) : Fin 256000 → EReal := fun l => V m c main_v3 (ix2 b l)
abbrev row2 (c : Dev nD) (b : Fin 64) : Fin 256000 → EReal := fun l => V m c main_arg1 (ix2 b l)
abbrev row3 (c : Dev nD) (b : Fin 64) : Fin 256000 → EReal := fun l => V m c main_arg2 (ix2 b l)

/-- The printed block index maps over the grid: an input block sits at (row block, length-block), the output block at
    (row block, 0). -/
theorem idx_facts : ∀ t : Fin cfg0.N,
    (win0_0.index t (0 : Fin 2) = t.val / 4 ∧ win0_0.index t (1 : Fin 2) = t.val % 4)
    ∧ (win0_1.index t (0 : Fin 2) = t.val / 4 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4)
    ∧ (win0_4.index t (0 : Fin 2) = t.val / 4 ∧ win0_4.index t (1 : Fin 2) = 0) :=
  (by decide +kernel : ∀ t : Fin grid0.N, _)

/-! Entry `(r, l)` of an array's block at the point of row block `q` and length-block `j` is the array's entry
    `(16 q + r, 64000 j + l)`. -/

theorem xb0_apply (c : Dev nD) (q j : Fin 4) (r : Fin 16) (b : Fin 64) (hb : b.val = 16 * q.val + r.val) (l : Fin 64000) :
    xb0 m c (pt q j.val j.isLt) (ix2 r l) = row0 m c b (⟨j.val * 64000 + l.val, by omega⟩ : Fin 256000) := by
  show V m c main_v1 (((cfg0.win 0).blk (pt q j.val j.isLt)).view.emb (ix2 r l)) = V m c main_v1 _
  refine congrArg (V m c main_v1) ?_
  funext a; apply Fin.ext
  match a with
  | ⟨0, _⟩ =>
    show win0_0.index (pt q j.val j.isLt) (0 : Fin 2) * 16 + 1 * r.val = b.val
    rw [(idx_facts (pt q j.val j.isLt)).1.1, hb]; dsimp only; omega
  | ⟨1, _⟩ =>
    show win0_0.index (pt q j.val j.isLt) (1 : Fin 2) * 64000 + 1 * l.val = j.val * 64000 + l.val
    rw [(idx_facts (pt q j.val j.isLt)).1.2]; dsimp only; omega

theorem xb1_apply (c : Dev nD) (q j : Fin 4) (r : Fin 16) (b : Fin 64) (hb : b.val = 16 * q.val + r.val) (l : Fin 64000) :
    xb1 m c (pt q j.val j.isLt) (ix2 r l) = row1 m c b (⟨j.val * 64000 + l.val, by omega⟩ : Fin 256000) := by
  show V m c main_v3 (((cfg0.win 1).blk (pt q j.val j.isLt)).view.emb (ix2 r l)) = V m c main_v3 _
  refine congrArg (V m c main_v3) ?_
  funext a; apply Fin.ext
  match a with
  | ⟨0, _⟩ =>
    show win0_1.index (pt q j.val j.isLt) (0 : Fin 2) * 16 + 1 * r.val = b.val
    rw [(idx_facts (pt q j.val j.isLt)).2.1.1, hb]; dsimp only; omega
  | ⟨1, _⟩ =>
    show win0_1.index (pt q j.val j.isLt) (1 : Fin 2) * 64000 + 1 * l.val = j.val * 64000 + l.val
    rw [(idx_facts (pt q j.val j.isLt)).2.1.2]; dsimp only; omega

theorem xb2_apply (c : Dev nD) (q j : Fin 4) (r : Fin 16) (b : Fin 64) (hb : b.val = 16 * q.val + r.val) (l : Fin 64000) :
    xb2 m c (pt q j.val j.isLt) (ix2 r l) = row2 m c b (⟨j.val * 64000 + l.val, by omega⟩ : Fin 256000) := by
  show V m c main_arg1 (((cfg0.win 2).blk (pt q j.val j.isLt)).view.emb (ix2 r l)) = V m c main_arg1 _
  refine congrArg (V m c main_arg1) ?_
  funext a; apply Fin.ext
  match a with
  | ⟨0, _⟩ =>
    show win0_2.index (pt q j.val j.isLt) (0 : Fin 2) * 16 + 1 * r.val = b.val
    rw [(idx_facts (pt q j.val j.isLt)).2.2.1.1, hb]; dsimp only; omega
  | ⟨1, _⟩ =>
    show win0_2.index (pt q j.val j.isLt) (1 : Fin 2) * 64000 + 1 * l.val = j.val * 64000 + l.val
    rw [(idx_facts (pt q j.val j.isLt)).2.2.1.2]; dsimp only; omega

theorem xb3_apply (c : Dev nD) (q j : Fin 4) (r : Fin 16) (b : Fin 64) (hb : b.val = 16 * q.val + r.val) (l : Fin 64000) :
    xb3 m c (pt q j.val j.isLt) (ix2 r l) = row3 m c b (⟨j.val * 64000 + l.val, by omega⟩ : Fin 256000) := by
  show V m c main_arg2 (((cfg0.win 3).blk (pt q j.val j.isLt)).view.emb (ix2 r l)) = V m c main_arg2 _
  refine congrArg (V m c main_arg2) ?_
  funext a; apply Fin.ext
  match a with
  | ⟨0, _⟩ =>
    show win0_3.index (pt q j.val j.isLt) (0 : Fin 2) * 16 + 1 * r.val = b.val
    rw [(idx_facts (pt q j.val j.isLt)).2.2.2.1.1, hb]; dsimp only; omega
  | ⟨1, _⟩ =>
    show win0_3.index (pt q j.val j.isLt) (1 : Fin 2) * 64000 + 1 * l.val = j.val * 64000 + l.val
    rw [(idx_facts (pt q j.val j.isLt)).2.2.2.1.2]; dsimp only; omega

/-- A sum of products over a whole row of length 256000 is the sum over the four length-blocks of the products of the
    blocks' entries, when the blocks read the two rows block by block. -/
theorem sum_row (q : Fin 4) (r : Fin 16) (X Y : Fin cfg0.N → Vec Ideal S16x64000 .f32) (A B : Fin 256000 → EReal)
    (hX : ∀ (j : Fin 4) (l : Fin 64000), X (pt q j.val j.isLt) (ix2 r l) = A ⟨j.val * 64000 + l.val, by omega⟩)
    (hY : ∀ (j : Fin 4) (l : Fin 64000), Y (pt q j.val j.isLt) (ix2 r l) = B ⟨j.val * 64000 + l.val, by omega⟩) :
    ∑ j : Fin 4, ∑ l : Fin 64000, X (pt q j.val j.isLt) (ix2 r l) * Y (pt q j.val j.isLt) (ix2 r l)
      = ∑ l : Fin 256000, A l * B l := by
  rw [sum_blocks (fun l => A l * B l)]
  refine Finset.sum_congr rfl fun j _ => Finset.sum_congr rfl fun l _ => ?_
  rw [hX j l, hY j l]

/-! ## The result array -/

/-- The eight sums of batch row `b` over the whole length, off the four arrays as the region finds them. -/
abbrev rowG (c : Dev nD) (b : Fin 64) (k : Fin 8) : EReal :=
  Cert.Spec.rowSums (row0 m c b) (row1 m c b) (row2 m c b) (row3 m c b) k

/-- The eight sums of a row, one by one. -/
theorem rowSums_cols {ι : Type} [Fintype ι] (p0 p1 t1 t2 : ι → EReal) :
    Cert.Spec.rowSums p0 p1 t1 t2 0 = ∑ l, p0 l * p0 l ∧
    Cert.Spec.rowSums p0 p1 t1 t2 1 = ∑ l, p1 l * p1 l ∧
    Cert.Spec.rowSums p0 p1 t1 t2 2 = ∑ l, t1 l * t1 l ∧
    Cert.Spec.rowSums p0 p1 t1 t2 3 = ∑ l, t2 l * t2 l ∧
    Cert.Spec.rowSums p0 p1 t1 t2 4 = ∑ l, p0 l * t1 l ∧
    Cert.Spec.rowSums p0 p1 t1 t2 5 = ∑ l, p1 l * t2 l ∧
    Cert.Spec.rowSums p0 p1 t1 t2 6 = ∑ l, p1 l * t1 l ∧
    Cert.Spec.rowSums p0 p1 t1 t2 7 = ∑ l, p0 l * t2 l :=
  ⟨rfl, rfl, rfl, rfl, rfl, rfl, rfl, rfl⟩

/-- The whole result array: entry `(b, k)` is the `k`-th sum of row `b`. -/
def G (c : Dev nD) : S64x8.Idx → EReal := fun i => rowG m c ⟨(i 0).val, idx2_lt0 i⟩ ⟨(i 1).val, idx2_lt1 i⟩

/-- One column of the fold: when column `k` of a point's block sums is the sum of products of the blocks `X`, `Y`, which
    read the rows `A`, `B` block by block, the four length-blocks' column-`k` sums add up to the row's sum of products. -/
theorem fold_pair (c : Dev nD) (q : Fin 4) (r : Fin 16) (k : Fin 8) (X Y : Fin cfg0.N → Vec Ideal S16x64000 .f32)
    (A B : Fin 256000 → EReal) (S : EReal)
    (hk : ∀ t : Fin cfg0.N, bsum m c t r k = ∑ l : Fin 64000, X t (ix2 r l) * Y t (ix2 r l))
    (hS : S = ∑ l : Fin 256000, A l * B l)
    (hX : ∀ (j : Fin 4) (l : Fin 64000), X (pt q j.val j.isLt) (ix2 r l) = A ⟨j.val * 64000 + l.val, by omega⟩)
    (hY : ∀ (j : Fin 4) (l : Fin 64000), Y (pt q j.val j.isLt) (ix2 r l) = B ⟨j.val * 64000 + l.val, by omega⟩) :
    ∑ j : Fin 4, bsum m c (pt q j.val j.isLt) r k = S := by
  rw [hS]
  refine (Fintype.sum_congr _ _ fun j : Fin 4 => hk (pt q j.val j.isLt)).trans ?_
  exact sum_row q r X Y A B hX hY

/-- The sums over the four length-blocks of row block `q` are the sums over the whole length of row `16 q + r`. -/
theorem fold_eq_row (c : Dev nD) (q : Fin 4) (r : Fin 16) (b : Fin 64) (hb : b.val = 16 * q.val + r.val) (k : Fin 8) :
    ∑ j : Fin 4, bsum m c (pt q j.val j.isLt) r k = rowG m c b k := by
  match k with
  | 0 =>
    exact fold_pair m c q r 0 (xb0 m c) (xb0 m c) (row0 m c b) (row0 m c b) (rowG m c b 0)
      (fun t => (blockSum_cols (xb0 m c t) (xb1 m c t) (xb2 m c t) (xb3 m c t) r).1)
      (rowSums_cols (row0 m c b) (row1 m c b) (row2 m c b) (row3 m c b)).1
      (fun j l => xb0_apply m c q j r b hb l) (fun j l => xb0_apply m c q j r b hb l)
  | 1 =>
    exact fold_pair m c q r 1 (xb1 m c) (xb1 m c) (row1 m c b) (row1 m c b) (rowG m c b 1)
      (fun t => (blockSum_cols (xb0 m c t) (xb1 m c t) (xb2 m c t) (xb3 m c t) r).2.1)
      (rowSums_cols (row0 m c b) (row1 m c b) (row2 m c b) (row3 m c b)).2.1
      (fun j l => xb1_apply m c q j r b hb l) (fun j l => xb1_apply m c q j r b hb l)
  | 2 =>
    exact fold_pair m c q r 2 (xb2 m c) (xb2 m c) (row2 m c b) (row2 m c b) (rowG m c b 2)
      (fun t => (blockSum_cols (xb0 m c t) (xb1 m c t) (xb2 m c t) (xb3 m c t) r).2.2.1)
      (rowSums_cols (row0 m c b) (row1 m c b) (row2 m c b) (row3 m c b)).2.2.1
      (fun j l => xb2_apply m c q j r b hb l) (fun j l => xb2_apply m c q j r b hb l)
  | 3 =>
    exact fold_pair m c q r 3 (xb3 m c) (xb3 m c) (row3 m c b) (row3 m c b) (rowG m c b 3)
      (fun t => (blockSum_cols (xb0 m c t) (xb1 m c t) (xb2 m c t) (xb3 m c t) r).2.2.2.1)
      (rowSums_cols (row0 m c b) (row1 m c b) (row2 m c b) (row3 m c b)).2.2.2.1
      (fun j l => xb3_apply m c q j r b hb l) (fun j l => xb3_apply m c q j r b hb l)
  | 4 =>
    exact fold_pair m c q r 4 (xb0 m c) (xb2 m c) (row0 m c b) (row2 m c b) (rowG m c b 4)
      (fun t => (blockSum_cols (xb0 m c t) (xb1 m c t) (xb2 m c t) (xb3 m c t) r).2.2.2.2.1)
      (rowSums_cols (row0 m c b) (row1 m c b) (row2 m c b) (row3 m c b)).2.2.2.2.1
      (fun j l => xb0_apply m c q j r b hb l) (fun j l => xb2_apply m c q j r b hb l)
  | 5 =>
    exact fold_pair m c q r 5 (xb1 m c) (xb3 m c) (row1 m c b) (row3 m c b) (rowG m c b 5)
      (fun t => (blockSum_cols (xb0 m c t) (xb1 m c t) (xb2 m c t) (xb3 m c t) r).2.2.2.2.2.1)
      (rowSums_cols (row0 m c b) (row1 m c b) (row2 m c b) (row3 m c b)).2.2.2.2.2.1
      (fun j l => xb1_apply m c q j r b hb l) (fun j l => xb3_apply m c q j r b hb l)
  | 6 =>
    exact fold_pair m c q r 6 (xb1 m c) (xb2 m c) (row1 m c b) (row2 m c b) (rowG m c b 6)
      (fun t => (blockSum_cols (xb0 m c t) (xb1 m c t) (xb2 m c t) (xb3 m c t) r).2.2.2.2.2.2.1)
      (rowSums_cols (row0 m c b) (row1 m c b) (row2 m c b) (row3 m c b)).2.2.2.2.2.2.1
      (fun j l => xb1_apply m c q j r b hb l) (fun j l => xb2_apply m c q j r b hb l)
  | 7 =>
    exact fold_pair m c q r 7 (xb0 m c) (xb3 m c) (row0 m c b) (row3 m c b) (rowG m c b 7)
      (fun t => (blockSum_cols (xb0 m c t) (xb1 m c t) (xb2 m c t) (xb3 m c t) r).2.2.2.2.2.2.2)
      (rowSums_cols (row0 m c b) (row1 m c b) (row2 m c b) (row3 m c b)).2.2.2.2.2.2.2
      (fun j l => xb0_apply m c q j r b hb l) (fun j l => xb3_apply m c q j r b hb l)

/-- What a point at a last length-block writes back is its block of the result array. -/
theorem flushed_eq (c : Dev nD) (t : Fin cfg0.N) (hf : (cfg0.win 4).flush t = true) :
    (dats (F := Ideal) m 0 c).flushed 4 t = ((cfg0.win 4).blk t).view.read (Elt Ideal) (G m c) := by
  have hN : cfg0.N = 16 := N_0
  have ht := t.isLt
  have h3 : t.val % 4 = 3 := (flush0_4 t).mp hf
  show (cfg0.win 4).cut (grid0.coords t) ((dats (F := Ideal) m 0 c).after 4 t) = _
  rw [after0_4]
  funext y
  obtain ⟨r, k, rfl⟩ : ∃ (r : Fin 16) (k : Fin 8), y = ix2 r k := ⟨y 0, y 1, eq_ix2 y⟩
  show (outsAt0 m c t.val t.isLt).1 (ix2 r k) = G m c (((cfg0.win 4).blk t).view.emb (ix2 r k))
  have hemb : ((cfg0.win 4).blk t).view.emb (ix2 r k) = ix2 (⟨16 * (t.val / 4) + r.val, by omega⟩ : Fin 64) k := by
    funext a; apply Fin.ext
    match a with
    | ⟨0, _⟩ =>
      show win0_4.index t (0 : Fin 2) * 16 + 1 * r.val = 16 * (t.val / 4) + r.val
      rw [(idx_facts t).2.2.2.2.1]; omega
    | ⟨1, _⟩ =>
      show win0_4.index t (1 : Fin 2) * 8 + 1 * k.val = k.val
      rw [(idx_facts t).2.2.2.2.2]; omega
  rw [hemb]
  refine (out_fold m c t h3 ⟨t.val / 4, by omega⟩ rfl r k).trans ?_
  exact fold_eq_row m c ⟨t.val / 4, by omega⟩ r ⟨16 * (t.val / 4) + r.val, by omega⟩ rfl k

/-- An index of the result array is in a point's block iff each coordinate is in the block's range on its axis. -/
theorem mem_blk4 (t : Fin cfg0.N) (i : S64x8.Idx) :
    i ∈ ((cfg0.win 4).blk t).view.set
      ↔ ∀ a : Fin 2, win0_4.index t a * S16x8.size a ≤ (i a).val ∧ (i a).val < win0_4.index t a * S16x8.size a + S16x8.size a := by
  show i ∈ ((View.whole main_v4).slice (win0_4.rect t)).set ↔ _
  rw [View.set_slice_whole, Rect.mem_set_unit]
  exact Iff.rfl

/-- The result array after the run: row `b` is written back by the last length-block's point of row block `b / 16`. -/
theorem final4 (c : Dev nD) : (dats (F := Ideal) m 0 c).arrAt 4 cfg0.N = G m c :=
  (dats (F := Ideal) m 0 c).arrAt_eq_of_cover 4 (G m c) (flushed_eq m c) fun i => by
    have hN : cfg0.N = 16 := N_0
    have hi0 : (i 0).val < 64 := idx2_lt0 (n0 := 64) (n1 := 8) i
    have hi1 : (i 1).val < 8 := idx2_lt1 (n0 := 64) (n1 := 8) i
    refine ⟨⟨4 * ((i 0).val / 16) + 3, by omega⟩, (flush0_4 _).mpr (by dsimp only; omega), ?_⟩
    rw [mem_blk4]
    intro a
    match a with
    | ⟨0, _⟩ =>
      show win0_4.index ⟨4 * ((i 0).val / 16) + 3, _⟩ (0 : Fin 2) * 16 ≤ (i 0).val
        ∧ (i 0).val < win0_4.index ⟨4 * ((i 0).val / 16) + 3, _⟩ (0 : Fin 2) * 16 + 16
      rw [(idx_facts _).2.2.2.2.1]; dsimp only; omega
    | ⟨1, _⟩ =>
      show win0_4.index ⟨4 * ((i 0).val / 16) + 3, _⟩ (1 : Fin 2) * 8 ≤ (i 1).val
        ∧ (i 1).val < win0_4.index ⟨4 * ((i 0).val / 16) + 3, _⟩ (1 : Fin 2) * 8 + 8
      rw [(idx_facts _).2.2.2.2.2]; omega

end Value

/-- Entry `(b, k)` of the kernel's result array: the `k`-th of the eight sums of row `b` over the whole length. -/
theorem final4_apply (m : (ℓ : Loc nD τ sig) → Buf (Elt Ideal) ℓ) (c : Dev nD) (b : Fin 64) (k : Fin 8) :
    (dats (F := Ideal) m 0 c).arrAt 4 cfg0.N (ix2 b k)
      = Cert.Spec.rowSums (fun l : Fin 256000 => V m c main_v1 (ix2 b l)) (fun l : Fin 256000 => V m c main_v3 (ix2 b l))
          (fun l : Fin 256000 => V m c main_arg1 (ix2 b l)) (fun l : Fin 256000 => V m c main_arg2 (ix2 b l)) k :=
  (congrFun (final4 m c) (ix2 b k)).trans rfl

end Cert.KernelIdeal.Hand

end
-- ==== Proof.KernelTail.lean ====
/-
  What the kernel's program computes AFTER its region, from the region's [64, 8] array of row sums.

  The 154 host operations cut the array into its eight columns (rows of 64), evaluate the ratio
  10 · log₁₀((α²‖t‖² + ε) / (‖p‖² − 2α⟨p,t⟩ + α²‖t‖² + ε)),  α = (⟨p,t⟩ + ε) / (‖t‖² + ε),  four times — once per
  (prediction, target) pairing — as vector operations over the 64 rows, average the two ratios of each of the two
  speaker assignments, keep the larger, add the 64 scores up from the zero word, negate, and divide by the word 64.
  First the operations' fold is the composed vector term (for any float values); then the term is read at its one index
  at the exact values, where every vector operation is the extended reals' operation at each row, a column read at a row
  is the array at (row, column), and the sum over the rank-1 index set is the sum over its coordinate.
-/
import proofs.«105792_j65670049956214_1_alg».proof.Proof.Gen.KernelIdeal.Launch
import proofs.«105792_j65670049956214_1_alg».proof.Proof.Spec
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Tail

open Cert.KernelIdeal Cert.KernelIdeal.Gen
open Idealize.ShloMosaic Idealize.ShloMosaic.ValueIdx

section Term
variable {F : FTy → Type} [FloatOps F]

/-- A float word as a constant row of 64: the scalar constant broadcast along the rows. -/
def cst (b : BitVec 32) : FVec F S64 .f32 :=
  broadcastInDim S64 ![] bcast_S_S64 (constant S_ .f32 b)

/-- Column `off 1` of a [64, 8] array as a row of 64: the [64, 1] slice with its unit axis dropped. -/
def col (X : FVec F S64x8 .f32) (off : Fin 2 → Nat) (h : S64x8.Slices off S64x1) : FVec F S64 .f32 :=
  shapeCast S64 (extractStridedSlice S64x1 off X h) shapeCasts_S64x1_S64

/-- The ratio from the three rows of sums ⟨p,p⟩, ⟨p,t⟩, ⟨t,t⟩, as the 24 vector operations of the program. -/
def sdrV (pp pt tt : FVec F S64 .f32) : FVec F S64 .f32 :=
  mulf (cst 0x41200000#32)
    (mulf (Host.log (Host.divf
        (addf (mulf (mulf (Host.divf (addf pt (cst 0x34000000#32)) (addf tt (cst 0x34000000#32)))
                          (Host.divf (addf pt (cst 0x34000000#32)) (addf tt (cst 0x34000000#32)))) tt)
              (cst 0x34000000#32))
        (addf (addf (subf pp (mulf (mulf (cst 0x40000000#32)
                                (Host.divf (addf pt (cst 0x34000000#32)) (addf tt (cst 0x34000000#32)))) pt))
                    (mulf (mulf (Host.divf (addf pt (cst 0x34000000#32)) (addf tt (cst 0x34000000#32)))
                                (Host.divf (addf pt (cst 0x34000000#32)) (addf tt (cst 0x34000000#32)))) tt))
              (cst 0x34000000#32))))
      (cst 0x3EDE5BD9#32))

/-- The rows' scores: the larger of the two pairings' mean ratios, from the eight columns of sums. -/
def scoreV (X : FVec F S64x8 .f32) : FVec F S64 .f32 :=
  maximumf
    (mulf (addf (sdrV (col X ![0, 0] slices_S64x8_S64x1_0_0) (col X ![0, 4] slices_S64x8_S64x1_0_4) (col X ![0, 2] slices_S64x8_S64x1_0_2))
                (sdrV (col X ![0, 1] slices_S64x8_S64x1_0_1) (col X ![0, 5] slices_S64x8_S64x1_0_5) (col X ![0, 3] slices_S64x8_S64x1_0_3)))
          (cst 0x3F000000#32))
    (mulf (addf (sdrV (col X ![0, 1] slices_S64x8_S64x1_0_1) (col X ![0, 6] slices_S64x8_S64x1_0_6) (col X ![0, 2] slices_S64x8_S64x1_0_2))
                (sdrV (col X ![0, 0] slices_S64x8_S64x1_0_0) (col X ![0, 7] slices_S64x8_S64x1_0_7) (col X ![0, 3] slices_S64x8_S64x1_0_3)))
          (cst 0x3F000000#32))

/-- The whole tail: minus the sum of the 64 scores (from the zero word), over the word 64. -/
def tailV (X : FVec F S64x8 .f32) : FVec F S_ .f32 :=
  Host.divf (Host.negf (Host.reduceAdd (scoreV X) (constant S_ .f32 0x00000000#32) reducesTo_S64_S_d0 h_S_))
    (constant S_ .f32 0x42800000#32)

set_option maxRecDepth 100000 in
set_option maxHeartbeats 4000000 in
/-- The 154 operations after the kernel's region leave, in the loss's buffer, the composed term of the region's
    [64, 8] output — for any float values. -/
theorem tail_term (W : Valuation τ sig (Elt F)) :
    StableHlo.after (hostOps1 (F := F)) W (Proc.devRef .tc main_v126) = tailV (W (Proc.devRef .tc main_v4)) := by
  after_results_simp
  rfl

end Term

/-! ## The term read at the exact values -/

section AtIdeal

/-- A constant row reads its word everywhere. -/
theorem cst_apply (b : BitVec 32) (i : S64.Idx) : cst (F := Ideal) b i = Ideal.ofBits .f32 b :=
  (broadcastInDim_scalar_apply bcast_S_S64 _ i).trans rfl

/-- Column `k` read at row `b` is the array at `(b, k)`: the unit axis's cast keeps the row, the slice shifts the
    column by its offset. -/
theorem col_apply (X : FVec Ideal S64x8 .f32) (o : Nat) (h : S64x8.Slices ![0, o] S64x1) (b : Fin 64) (k : Fin 8)
    (hk : k.val = o) : col X ![0, o] h (ix1 b) = X (ix2 b k) := by
  unfold col
  refine (shapeCast_apply _ shapeCasts_S64x1_S64 (ix1 b) (ix2 b (0 : Fin 1)) ?_).trans ?_
  · rw [Shape.rowMajor_val_two, Shape.rowMajor_val_one]
    show b.val * 1 + 0 = b.val
    omega
  · exact slice2_axis1_apply o X h b 0 k (by show k.val = o + 0; omega)

/-- The 24 vector operations at a row are the ratio of that row's three sums. -/
theorem sdrV_apply (pp pt tt : FVec Ideal S64 .f32) (i : S64.Idx) :
    sdrV pp pt tt i = Cert.Spec.sdrK (pp i) (pt i) (tt i) := rfl

/-- A row's score is the score of its eight sums. -/
theorem scoreV_apply (X : FVec Ideal S64x8 .f32) (b : Fin 64) :
    scoreV X (ix1 b) = Cert.Spec.rowK (fun k : Fin 8 => X (ix2 b k)) := by
  unfold scoreV Cert.Spec.rowK
  simp only [maximumf_apply, mulf_apply, addf_apply, sdrV_apply, cst_apply,
    col_apply X 0 slices_S64x8_S64x1_0_0 b 0 rfl, col_apply X 1 slices_S64x8_S64x1_0_1 b 1 rfl,
    col_apply X 2 slices_S64x8_S64x1_0_2 b 2 rfl, col_apply X 3 slices_S64x8_S64x1_0_3 b 3 rfl,
    col_apply X 4 slices_S64x8_S64x1_0_4 b 4 rfl, col_apply X 5 slices_S64x8_S64x1_0_5 b 5 rfl,
    col_apply X 6 slices_S64x8_S64x1_0_6 b 6 rfl, col_apply X 7 slices_S64x8_S64x1_0_7 b 7 rfl]

/-- The whole tail at its one index: minus the sum of the 64 rows' scores, over 64. -/
theorem tailV_apply (X : FVec Ideal S64x8 .f32) (j : S_.Idx) :
    tailV X j = Cert.Spec.loss (fun b : Fin 64 => Cert.Spec.rowK (fun k : Fin 8 => X (ix2 b k))) := by
  unfold tailV Cert.Spec.loss
  rw [hostDivf_apply]
  show Ideal.div (-(Host.reduceAdd (scoreV X) (constant S_ .f32 0x00000000#32) reducesTo_S64_S_d0 h_S_ j)) Cert.Spec.c64 = _
  rw [hostReduceAdd_apply, Ideal.hostReduceAdd_total reducesTo_S64_S_d0 (fun b => b.elim0)]
  have hsum : (∑ i : S64.Idx, scoreV X i) = ∑ b : Fin 64, Cert.Spec.rowK (fun k : Fin 8 => X (ix2 b k)) := by
    rw [← Equiv.sum_comp (idxEquiv1 (n := 64)).symm (scoreV X)]
    exact Finset.sum_congr rfl fun b _ => scoreV_apply X b
  rw [hsum]
  rfl

end AtIdeal

/-- What the kernel's program computes after its region, from the region's [64, 8] array of sums: the loss of the
    rows' scores. -/
theorem tail_value (W : Valuation τ sig (Elt Ideal)) :
    StableHlo.after (hostOps1 (F := Ideal)) W (Proc.devRef .tc main_v126)
      = fun _ => Cert.Spec.loss (fun b : Fin 64 => Cert.Spec.rowK (fun k : Fin 8 => W (Proc.devRef .tc main_v4) (ix2 b k))) := by
  rw [tail_term]
  funext j
  exact tailV_apply _ j

end Cert.KernelIdeal.Tail

end
-- ==== Proof.KernelPrefix.lean ====
/-
  What the four host operations before the region leave in the two arrays the region reads its first two operands from.
  The program's first argument is a stack of two [64, 256000] arrays. The host slices plane 0 (a [1, 64, 256000] array)
  and drops its unit axis, and does the same for plane 1. So the first array read at (b, l) is the argument at (0, b, l)
  and the second is the argument at (1, b, l).
-/
import proofs.«105792_j65670049956214_1_alg».proof.Proof.KernelIdealKit
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## One plane of a stack, read at an index -/

/-- Plane `s` of a stack of `n` matrices, cut out as a one-plane stack, reads at `(u, i, j)` the stack at `(s, i, j)`:
the offsets are `s` on the stacking axis and zero on the other two, and the one-plane stack's own coordinate `u` on the
stacking axis is zero. -/
theorem plane_apply {α : Type} {n a b : ℕ} (s : Fin n) (X : (⟨3, ![n, a, b]⟩ : Shape).Idx → α)
    (h : (⟨3, ![n, a, b]⟩ : Shape).Slices ![s.val, 0, 0] ⟨3, ![1, a, b]⟩) (u : Fin 1) (i : Fin a) (j : Fin b) :
    extractStridedSlice ⟨3, ![1, a, b]⟩ ![s.val, 0, 0] X h (ix3 u i j) = X (ix3 s i j) :=
  extractStridedSlice_apply _ _ _ _ _ (fun ax => by
    match ax with
    | ⟨0, _⟩ =>
      have hu : u.val = 0 := by omega
      show s.val = s.val + u.val
      rw [hu, Nat.add_zero]
    | ⟨1, _⟩ => exact (Nat.zero_add _).symm
    | ⟨2, _⟩ => exact (Nat.zero_add _).symm)

/-- Plane `s` cut out and its unit axis dropped reads at `(i, j)` the stack at `(s, i, j)`. -/
theorem plane_dropUnit_apply {α : Type} {n a b : ℕ} (s : Fin n) (X : (⟨3, ![n, a, b]⟩ : Shape).Idx → α)
    (h : (⟨3, ![n, a, b]⟩ : Shape).Slices ![s.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![s.val, 0, 0] X h) hc (ix2 i j) = X (ix3 s i j) :=
  (shapeCast_1ab_ab_apply _ hc i j).trans (plane_apply s X h 0 i j)

/-! ## The two arrays the region reads -/

/-- The first array is plane 0 of the argument with the unit axis dropped. -/
theorem V_main_v1_eq (c : Dev nD) :
    (V m c main_v1 : S64x256000.Idx → _)
      = shapeCast S64x256000
          (extractStridedSlice S1x64x256000 ![0, 0, 0] (m ((c : Thread nD τ).loc main_arg0))
            slices_S2x64x256000_S1x64x256000_0_0_0)
          shapeCasts_S1x64x256000_S64x256000 := by
  show StableHlo.after hostOps0 (fun b => m (c, b)) (Proc.devRef .tc main_v1) = _
  after_results
  rfl

/-- The second array is plane 1 of the argument with the unit axis dropped. -/
theorem V_main_v3_eq (c : Dev nD) :
    (V m c main_v3 : S64x256000.Idx → _)
      = shapeCast S64x256000
          (extractStridedSlice S1x64x256000 ![1, 0, 0] (m ((c : Thread nD τ).loc main_arg0))
            slices_S2x64x256000_S1x64x256000_1_0_0)
          shapeCasts_S1x64x256000_S64x256000 := by
  show StableHlo.after hostOps0 (fun b => m (c, b)) (Proc.devRef .tc main_v3) = _
  after_results
  rfl

/-- The first array at `(b, l)` is the argument at `(0, b, l)`. -/
theorem V_main_v1_apply (c : Dev nD) (b : Fin 64) (l : Fin 256000) :
    V m c main_v1 (ix2 b l) = m ((c : Thread nD τ).loc main_arg0) (ix3 (0 : Fin 2) b l) := by
  have e := congrFun (V_main_v1_eq m c) (ix2 b l)
  exact e.trans (plane_dropUnit_apply (0 : Fin 2) _ _ _ b l)

/-- The second array at `(b, l)` is the argument at `(1, b, l)`. -/
theorem V_main_v3_apply (c : Dev nD) (b : Fin 64) (l : Fin 256000) :
    V m c main_v3 (ix2 b l) = m ((c : Thread nD τ).loc main_arg0) (ix3 (1 : Fin 2) b l) := by
  have e := congrFun (V_main_v3_eq m c) (ix2 b l)
  exact e.trans (plane_dropUnit_apply (1 : Fin 2) _ _ _ b l)

end Cert.KernelIdeal.Hand

end
-- ==== Proof.KernelResult.lean ====
/-
  The idealized kernel program's result, read: the later host lines compute the loss from the region's result array,
  whose entry (b, k) is the k-th of row b's eight sums over the whole length; the first two operands of the region are
  the two planes of the first argument. So the program ends with its result at the loss as a function of the three
  arguments, which it leaves unchanged.
-/
import proofs.«105792_j65670049956214_1_alg».proof.Proof.KernelIdealFrame
import proofs.«105792_j65670049956214_1_alg».proof.Proof.KernelValue
import proofs.«105792_j65670049956214_1_alg».proof.Proof.KernelTail
import proofs.«105792_j65670049956214_1_alg».proof.Proof.KernelPrefix
import proofs.«105792_j65670049956214_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The loss as the kernel's program computes it from the three argument arrays: each row reduced to its eight sums,
    the score of the row from the sums, minus the mean of the scores. -/
def lossK (a0 : (⟨S2x64x256000, .f32⟩ : BufTy).Contents (Elt Ideal)) (a1 a2 : (⟨S64x256000, .f32⟩ : BufTy).Contents (Elt Ideal)) : EReal :=
  Cert.Spec.loss (fun b : Fin 64 => Cert.Spec.rowK (Cert.Spec.rowSums
    (fun l : Fin 256000 => a0 (ix3 (0 : Fin 2) b l)) (fun l : Fin 256000 => a0 (ix3 (1 : Fin 2) b l))
    (fun l : Fin 256000 => a1 (ix2 b l)) (fun l : Fin 256000 => a2 (ix2 b l))))

variable (m : (ℓ : Loc nD τ sig) → Buf (Elt Ideal) ℓ) (ρ : Dev nD → PrngReg)

/-- The result buffer after the later lines: they compute the loss from the region's result array, whose entry (b, k)
    is the k-th sum of row b, the first two operand arrays being the two planes of the first argument. -/
theorem result_eq (c : Dev nD) :
    Pipeline.afterTail₀ cfgs (dats (F := Ideal) m) 0 (V0 m) [hostOps1] c main_v126
      = fun _ => lossK (m ((c : Thread nD τ).loc main_arg0)) (m ((c : Thread nD τ).loc main_arg1)) (m ((c : Thread nD τ).loc main_arg2)) := by
  unfold Pipeline.afterTail₀
  rw [show ([hostOps1] : List (List (HloOp τ sig (Elt Ideal)))).flatten = hostOps1 from List.append_nil _]
  rw [Cert.KernelIdeal.Tail.tail_value]
  funext _
  unfold lossK
  refine congrArg Cert.Spec.loss (funext fun b => congrArg Cert.Spec.rowK (funext fun k => ?_))
  rw [Pipeline.withArrays_arr spec0 launch0.win.arr_inj c _ _ 4]
  rw [final4_apply m c b k]
  have e1 := funext fun l : Fin 256000 => V_main_v1_apply m c b l
  have e3 := funext fun l : Fin 256000 => V_main_v3_apply m c b l
  have e4 := funext fun l : Fin 256000 => congrFun (V_main_arg1 m c) (ix2 b l)
  have e5 := funext fun l : Fin 256000 => congrFun (V_main_arg2 m c) (ix2 b l)
  rw [e1, e3, e4, e5]

/-- The run of the idealized kernel program, read: the result at the loss, the arguments unchanged. -/
theorem value_run : θ_run defs (onTc (τ := τ) (main (F := Ideal))) ⟨m, fun _ => 0, ρ⟩ (fun r => ∀ c : Dev nD,
      r.2.mem ((c.tc : Thread nD τ).loc main_v126) = (fun _ => lossK (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v126 (Pipeline.mem_restRefs_of main_v126 (by decide) (by decide))).trans (result_eq m c),
    (((h c).2 main_arg0 (Pipeline.mem_restRefs_of main_arg0 (by decide) (by decide))).trans (W_main_arg0 m (dats m) c)),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c)))⟩) (run_main m ρ)

end Cert.KernelIdeal.Hand

end
-- ==== Proof.RefValue.lean ====
/-
  What the reference program computes, read index by index.

  The reference stacks the two target arrays along a new leading speaker axis and reverses the prediction array along
  its speaker axis. For each pairing (the predictions as given, and speaker-reversed) and each (speaker s, row b) it
  forms the scale  α = (0 + Σ_l p·t + ε) / (0 + Σ_l t·t + ε)  and the ratio
  10 · (log((0 + Σ_l (α t)² + ε) / (0 + Σ_l (p − α t)² + ε)) · c),  averages the two speakers' ratios of a row,
  takes the larger of the two pairings' averages, and returns minus the sum over the 64 rows, divided by 64.
  Each stage below is the corresponding operation of the program read at an index built from its coordinates; the
  sums over the 256000 samples stay sums throughout.
-/
import proofs.«105792_j65670049956214_1_alg».proof.Proof.Gen.ReferenceIdeal.Read
import proofs.«105792_j65670049956214_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The stacked targets and the speaker-swapped predictions, read at an index -/

section Layout
variable {F : FTy → Type} [FloatOps F]

/-- Speaker 0 of the stacked targets is the first target array. -/
theorem stack_zero (x1 x2 : (⟨S64x256000, .f32⟩ : BufTy).Contents (Elt F)) (b : Fin 64) (l : Fin 256000) :
    val_main_v2 (F := F) x1 x2 (ix3 (0 : Fin 2) b l) = x1 (ix2 b l) := by
  unfold val_main_v2
  refine (concatenate_pair_apply_left (t := S2x64x256000) (s₁ := S1x64x256000) (s₂ := S1x64x256000) (0 : Fin 3) _ _ _
    (ix3 (0 : Fin 2) b l) rfl (ix3 (0 : Fin 1) b l) (fun a => by match a with | ⟨0, _⟩ => rfl | ⟨1, _⟩ => rfl | ⟨2, _⟩ => rfl)).trans ?_
  rw [val_main_v0_apply]
  exact congrArg x1 (funext fun a => by match a with | ⟨0, _⟩ => rfl | ⟨1, _⟩ => rfl)

/-- Speaker 1 of the stacked targets is the second target array. -/
theorem stack_one (x1 x2 : (⟨S64x256000, .f32⟩ : BufTy).Contents (Elt F)) (b : Fin 64) (l : Fin 256000) :
    val_main_v2 (F := F) x1 x2 (ix3 (1 : Fin 2) b l) = x2 (ix2 b l) := by
  unfold val_main_v2
  refine (concatenate_pair_apply_right (t := S2x64x256000) (s₁ := S1x64x256000) (s₂ := S1x64x256000) (0 : Fin 3) _ _ _
    (ix3 (1 : Fin 2) b l) rfl rfl (ix3 (0 : Fin 1) b l)
    (fun a ha => by match a, ha with | ⟨0, _⟩, ha => exact absurd rfl ha | ⟨1, _⟩, _ => rfl | ⟨2, _⟩, _ => rfl) rfl).trans ?_
  rw [val_main_v1_apply]
  exact congrArg x2 (funext fun a => by match a with | ⟨0, _⟩ => rfl | ⟨1, _⟩ => rfl)

/-- The reversal along the speaker axis reads speaker 1 at speaker 0 … -/
theorem swap_zero (x0 : (⟨S2x64x256000, .f32⟩ : BufTy).Contents (Elt F)) (b : Fin 64) (l : Fin 256000) :
    val_main_v3 (F := F) x0 (ix3 (0 : Fin 2) b l) = x0 (ix3 (1 : Fin 2) b l) := by
  unfold val_main_v3 Host.reverse
  exact congrArg x0 (funext fun a => by match a with | ⟨0, _⟩ => rfl | ⟨1, _⟩ => rfl | ⟨2, _⟩ => rfl)

/-- … and speaker 0 at speaker 1. -/
theorem swap_one (x0 : (⟨S2x64x256000, .f32⟩ : BufTy).Contents (Elt F)) (b : Fin 64) (l : Fin 256000) :
    val_main_v3 (F := F) x0 (ix3 (1 : Fin 2) b l) = x0 (ix3 (0 : Fin 2) b l) := by
  unfold val_main_v3 Host.reverse
  exact congrArg x0 (funext fun a => by match a with | ⟨0, _⟩ => rfl | ⟨1, _⟩ => rfl | ⟨2, _⟩ => rfl)

end Layout

/-! ## The straight pairing: prediction speaker s against target speaker s -/

section Straight
variable (x0 : (⟨S2x64x256000, .f32⟩ : BufTy).Contents (Elt Ideal)) (x1 x2 : (⟨S64x256000, .f32⟩ : BufTy).Contents (Elt Ideal))

/-- ⟨p, t⟩ of a row, started from the zero word. -/
theorem st_dot (s : Fin 2) (b : Fin 64) :
    val_main_v5 (F := Ideal) x0 x1 x2 (ix2 s b)
      = Cert.Spec.zero + ∑ l : Fin 256000, x0 (ix3 s b l) * val_main_v2 (F := Ideal) x1 x2 (ix3 s b l) := by
  rw [val_main_v5_apply]
  refine congrArg₂ (· + ·) rfl (Finset.sum_congr rfl fun k _ => ?_)
  rw [show idx_main_v5 (ix2 s b) k = ix3 s b k from
    funext fun a => by match a with | ⟨0, _⟩ => rfl | ⟨1, _⟩ => rfl | ⟨2, _⟩ => rfl]
  rfl

/-- ⟨t, t⟩ of a row, started from the zero word. -/
theorem st_nrm (s : Fin 2) (b : Fin 64) :
    val_main_v10 (F := Ideal) x1 x2 (ix2 s b)
      = Cert.Spec.zero + ∑ l : Fin 256000, val_main_v2 (F := Ideal) x1 x2 (ix3 s b l) * val_main_v2 (F := Ideal) x1 x2 (ix3 s b l) := by
  rw [val_main_v10_apply]
  refine congrArg₂ (· + ·) rfl (Finset.sum_congr rfl fun k _ => ?_)
  rw [show idx_main_v10 (ix2 s b) k = ix3 s b k from
    funext fun a => by match a with | ⟨0, _⟩ => rfl | ⟨1, _⟩ => rfl | ⟨2, _⟩ => rfl]
  rfl

/-- The scale α of a row. -/
theorem st_alpha (s : Fin 2) (b : Fin 64) :
    val_main_v14 (F := Ideal) x0 x1 x2 (ix3 s b (0 : Fin 1))
      = Cert.Spec.alphaR (fun l : Fin 256000 => x0 (ix3 s b l)) (fun l : Fin 256000 => val_main_v2 (F := Ideal) x1 x2 (ix3 s b l)) := by
  rw [val_main_v14_apply, val_main_v8_apply, val_main_v13_apply, val_main_v6_apply, val_main_v11_apply,
    val_main_v7_apply, val_main_v12_apply]
  rw [show idx_main_v6 (ix3 s b (0 : Fin 1)) = ix2 s b from
      funext fun a => by match a with | ⟨0, _⟩ => rfl | ⟨1, _⟩ => rfl,
    show idx_main_v11 (ix3 s b (0 : Fin 1)) = ix2 s b from
      funext fun a => by match a with | ⟨0, _⟩ => rfl | ⟨1, _⟩ => rfl,
    st_dot, st_nrm]
  rfl

/-- The scaled target α t at an index. -/
theorem st_scaled (s : Fin 2) (b : Fin 64) (l : Fin 256000) :
    val_main_v16 (F := Ideal) x0 x1 x2 (ix3 s b l)
      = Cert.Spec.alphaR (fun l : Fin 256000 => x0 (ix3 s b l)) (fun l : Fin 256000 => val_main_v2 (F := Ideal) x1 x2 (ix3 s b l))
          * val_main_v2 (F := Ideal) x1 x2 (ix3 s b l) := by
  rw [val_main_v16_apply, val_main_v15_apply]
  rw [show idx_main_v15 (ix3 s b l) = ix3 s b (0 : Fin 1) from
      funext fun a => by match a with | ⟨0, _⟩ => rfl | ⟨1, _⟩ => rfl | ⟨2, _⟩ => rfl,
    st_alpha]
  rfl

/-- The ratio of a row, in decibels. -/
theorem st_sdr (s : Fin 2) (b : Fin 64) :
    val_main_v31 (F := Ideal) x0 x1 x2 (ix2 s b)
      = Cert.Spec.sdrR (fun l : Fin 256000 => x0 (ix3 s b l)) (fun l : Fin 256000 => val_main_v2 (F := Ideal) x1 x2 (ix3 s b l)) := by
  rw [val_main_v31_apply, val_main_v30_apply, val_main_v29_apply, val_main_v28_apply, val_main_v27_apply,
    val_main_v26_apply, val_main_v21_apply, val_main_v25_apply, val_main_v20_apply, val_main_v24_apply,
    val_main_v19_apply, val_main_v23_apply]
  have hs : ∀ k : Fin 256000, val_main_v18 (F := Ideal) x0 x1 x2 (idx_main_v19 (ix2 s b) k)
      = (Cert.Spec.alphaR (fun l : Fin 256000 => x0 (ix3 s b l)) (fun l : Fin 256000 => val_main_v2 (F := Ideal) x1 x2 (ix3 s b l))
            * val_main_v2 (F := Ideal) x1 x2 (ix3 s b k))
        * (Cert.Spec.alphaR (fun l : Fin 256000 => x0 (ix3 s b l)) (fun l : Fin 256000 => val_main_v2 (F := Ideal) x1 x2 (ix3 s b l))
            * val_main_v2 (F := Ideal) x1 x2 (ix3 s b k)) := fun k => by
    rw [show idx_main_v19 (ix2 s b) k = ix3 s b k from
      funext fun a => by match a with | ⟨0, _⟩ => rfl | ⟨1, _⟩ => rfl | ⟨2, _⟩ => rfl,
      val_main_v18_apply, st_scaled]
    rfl
  have hn : ∀ k : Fin 256000, val_main_v22 (F := Ideal) x0 x1 x2 (idx_main_v23 (ix2 s b) k)
      = (x0 (ix3 s b k) - Cert.Spec.alphaR (fun l : Fin 256000 => x0 (ix3 s b l)) (fun l : Fin 256000 => val_main_v2 (F := Ideal) x1 x2 (ix3 s b l))
            * val_main_v2 (F := Ideal) x1 x2 (ix3 s b k))
        * (x0 (ix3 s b k) - Cert.Spec.alphaR (fun l : Fin 256000 => x0 (ix3 s b l)) (fun l : Fin 256000 => val_main_v2 (F := Ideal) x1 x2 (ix3 s b l))
            * val_main_v2 (F := Ideal) x1 x2 (ix3 s b k)) := fun k => by
    rw [show idx_main_v23 (ix2 s b) k = ix3 s b k from
      funext fun a => by match a with | ⟨0, _⟩ => rfl | ⟨1, _⟩ => rfl | ⟨2, _⟩ => rfl,
      val_main_v22_apply, val_main_v17_apply, st_scaled]
    rfl
  rw [Finset.sum_congr rfl fun k _ => hs k, Finset.sum_congr rfl fun k _ => hn k]
  simp only [val_main_cst_apply, val_main_cst_2_apply, val_main_cst_3_apply, val_main_cst_4_apply, val_main_cst_5_apply,
    Ideal.ofBits_def, Ideal.mulf_def, Ideal.addf_def, Ideal.hostDivf_def, Ideal.hostUnary_log_def]
  rfl

/-- A row's mean ratio over the two speakers. -/
theorem st_score (b : Fin 64) :
    val_main_v34 (F := Ideal) x0 x1 x2 (ix1 b)
      = Ideal.div (Cert.Spec.zero
          + (Cert.Spec.sdrR (fun l : Fin 256000 => x0 (ix3 (0 : Fin 2) b l)) (fun l : Fin 256000 => val_main_v2 (F := Ideal) x1 x2 (ix3 (0 : Fin 2) b l))
            + Cert.Spec.sdrR (fun l : Fin 256000 => x0 (ix3 (1 : Fin 2) b l)) (fun l : Fin 256000 => val_main_v2 (F := Ideal) x1 x2 (ix3 (1 : Fin 2) b l))))
          Cert.Spec.two := by
  rw [val_main_v34_apply, val_main_v33_apply, val_main_v32_apply, Fin.sum_univ_two]
  rw [show idx_main_v32 (ix1 b) (0 : Fin 2) = ix2 (0 : Fin 2) b from
      funext fun a => by match a with | ⟨0, _⟩ => rfl | ⟨1, _⟩ => rfl,
    show idx_main_v32 (ix1 b) (1 : Fin 2) = ix2 (1 : Fin 2) b from
      funext fun a => by match a with | ⟨0, _⟩ => rfl | ⟨1, _⟩ => rfl,
    st_sdr, st_sdr]
  rfl

end Straight

/-! ## The swapped pairing: the speaker-reversed predictions against the same targets -/

section Swapped
variable (x0 : (⟨S2x64x256000, .f32⟩ : BufTy).Contents (Elt Ideal)) (x1 x2 : (⟨S64x256000, .f32⟩ : BufTy).Contents (Elt Ideal))

/-- ⟨p, t⟩ of a row, started from the zero word. -/
theorem sw_dot (s : Fin 2) (b : Fin 64) :
    val_main_v36 (F := Ideal) x0 x1 x2 (ix2 s b)
      = Cert.Spec.zero + ∑ l : Fin 256000, val_main_v3 (F := Ideal) x0 (ix3 s b l) * val_main_v2 (F := Ideal) x1 x2 (ix3 s b l) := by
  rw [val_main_v36_apply]
  refine congrArg₂ (· + ·) rfl (Finset.sum_congr rfl fun k _ => ?_)
  rw [show idx_main_v36 (ix2 s b) k = ix3 s b k from
    funext fun a => by match a with | ⟨0, _⟩ => rfl | ⟨1, _⟩ => rfl | ⟨2, _⟩ => rfl]
  rfl

/-- ⟨t, t⟩ of a row, started from the zero word. -/
theorem sw_nrm (s : Fin 2) (b : Fin 64) :
    val_main_v41 (F := Ideal) x1 x2 (ix2 s b)
      = Cert.Spec.zero + ∑ l : Fin 256000, val_main_v2 (F := Ideal) x1 x2 (ix3 s b l) * val_main_v2 (F := Ideal) x1 x2 (ix3 s b l) := by
  rw [val_main_v41_apply]
  refine congrArg₂ (· + ·) rfl (Finset.sum_congr rfl fun k _ => ?_)
  rw [show idx_main_v41 (ix2 s b) k = ix3 s b k from
    funext fun a => by match a with | ⟨0, _⟩ => rfl | ⟨1, _⟩ => rfl | ⟨2, _⟩ => rfl]
  rfl

/-- The scale α of a row. -/
theorem sw_alpha (s : Fin 2) (b : Fin 64) :
    val_main_v45 (F := Ideal) x0 x1 x2 (ix3 s b (0 : Fin 1))
      = Cert.Spec.alphaR (fun l : Fin 256000 => val_main_v3 (F := Ideal) x0 (ix3 s b l)) (fun l : Fin 256000 => val_main_v2 (F := Ideal) x1 x2 (ix3 s b l)) := by
  rw [val_main_v45_apply, val_main_v39_apply, val_main_v44_apply, val_main_v37_apply, val_main_v42_apply,
    val_main_v38_apply, val_main_v43_apply]
  rw [show idx_main_v37 (ix3 s b (0 : Fin 1)) = ix2 s b from
      funext fun a => by match a with | ⟨0, _⟩ => rfl | ⟨1, _⟩ => rfl,
    show idx_main_v42 (ix3 s b (0 : Fin 1)) = ix2 s b from
      funext fun a => by match a with | ⟨0, _⟩ => rfl | ⟨1, _⟩ => rfl,
    sw_dot, sw_nrm]
  rfl

/-- The scaled target α t at an index. -/
theorem sw_scaled (s : Fin 2) (b : Fin 64) (l : Fin 256000) :
    val_main_v47 (F := Ideal) x0 x1 x2 (ix3 s b l)
      = Cert.Spec.alphaR (fun l : Fin 256000 => val_main_v3 (F := Ideal) x0 (ix3 s b l)) (fun l : Fin 256000 => val_main_v2 (F := Ideal) x1 x2 (ix3 s b l))
          * val_main_v2 (F := Ideal) x1 x2 (ix3 s b l) := by
  rw [val_main_v47_apply, val_main_v46_apply]
  rw [show idx_main_v46 (ix3 s b l) = ix3 s b (0 : Fin 1) from
      funext fun a => by match a with | ⟨0, _⟩ => rfl | ⟨1, _⟩ => rfl | ⟨2, _⟩ => rfl,
    sw_alpha]
  rfl

/-- The ratio of a row, in decibels. -/
theorem sw_sdr (s : Fin 2) (b : Fin 64) :
    val_main_v62 (F := Ideal) x0 x1 x2 (ix2 s b)
      = Cert.Spec.sdrR (fun l : Fin 256000 => val_main_v3 (F := Ideal) x0 (ix3 s b l)) (fun l : Fin 256000 => val_main_v2 (F := Ideal) x1 x2 (ix3 s b l)) := by
  rw [val_main_v62_apply, val_main_v61_apply, val_main_v60_apply, val_main_v59_apply, val_main_v58_apply,
    val_main_v57_apply, val_main_v52_apply, val_main_v56_apply, val_main_v51_apply, val_main_v55_apply,
    val_main_v50_apply, val_main_v54_apply]
  have hs : ∀ k : Fin 256000, val_main_v49 (F := Ideal) x0 x1 x2 (idx_main_v50 (ix2 s b) k)
      = (Cert.Spec.alphaR (fun l : Fin 256000 => val_main_v3 (F := Ideal) x0 (ix3 s b l)) (fun l : Fin 256000 => val_main_v2 (F := Ideal) x1 x2 (ix3 s b l))
            * val_main_v2 (F := Ideal) x1 x2 (ix3 s b k))
        * (Cert.Spec.alphaR (fun l : Fin 256000 => val_main_v3 (F := Ideal) x0 (ix3 s b l)) (fun l : Fin 256000 => val_main_v2 (F := Ideal) x1 x2 (ix3 s b l))
            * val_main_v2 (F := Ideal) x1 x2 (ix3 s b k)) := fun k => by
    rw [show idx_main_v50 (ix2 s b) k = ix3 s b k from
      funext fun a => by match a with | ⟨0, _⟩ => rfl | ⟨1, _⟩ => rfl | ⟨2, _⟩ => rfl,
      val_main_v49_apply, sw_scaled]
    rfl
  have hn : ∀ k : Fin 256000, val_main_v53 (F := Ideal) x0 x1 x2 (idx_main_v54 (ix2 s b) k)
      = (val_main_v3 (F := Ideal) x0 (ix3 s b k) - Cert.Spec.alphaR (fun l : Fin 256000 => val_main_v3 (F := Ideal) x0 (ix3 s b l)) (fun l : Fin 256000 => val_main_v2 (F := Ideal) x1 x2 (ix3 s b l))
            * val_main_v2 (F := Ideal) x1 x2 (ix3 s b k))
        * (val_main_v3 (F := Ideal) x0 (ix3 s b k) - Cert.Spec.alphaR (fun l : Fin 256000 => val_main_v3 (F := Ideal) x0 (ix3 s b l)) (fun l : Fin 256000 => val_main_v2 (F := Ideal) x1 x2 (ix3 s b l))
            * val_main_v2 (F := Ideal) x1 x2 (ix3 s b k)) := fun k => by
    rw [show idx_main_v54 (ix2 s b) k = ix3 s b k from
      funext fun a => by match a with | ⟨0, _⟩ => rfl | ⟨1, _⟩ => rfl | ⟨2, _⟩ => rfl,
      val_main_v53_apply, val_main_v48_apply, sw_scaled]
    rfl
  rw [Finset.sum_congr rfl fun k _ => hs k, Finset.sum_congr rfl fun k _ => hn k]
  simp only [val_main_cst_apply, val_main_cst_10_apply, val_main_cst_11_apply, val_main_cst_12_apply, val_main_cst_13_apply,
    Ideal.ofBits_def, Ideal.mulf_def, Ideal.addf_def, Ideal.hostDivf_def, Ideal.hostUnary_log_def]
  rfl

/-- A row's mean ratio over the two speakers. -/
theorem sw_score (b : Fin 64) :
    val_main_v65 (F := Ideal) x0 x1 x2 (ix1 b)
      = Ideal.div (Cert.Spec.zero
          + (Cert.Spec.sdrR (fun l : Fin 256000 => val_main_v3 (F := Ideal) x0 (ix3 (0 : Fin 2) b l)) (fun l : Fin 256000 => val_main_v2 (F := Ideal) x1 x2 (ix3 (0 : Fin 2) b l))
            + Cert.Spec.sdrR (fun l : Fin 256000 => val_main_v3 (F := Ideal) x0 (ix3 (1 : Fin 2) b l)) (fun l : Fin 256000 => val_main_v2 (F := Ideal) x1 x2 (ix3 (1 : Fin 2) b l))))
          Cert.Spec.two := by
  rw [val_main_v65_apply, val_main_v64_apply, val_main_v63_apply, Fin.sum_univ_two]
  rw [show idx_main_v63 (ix1 b) (0 : Fin 2) = ix2 (0 : Fin 2) b from
      funext fun a => by match a with | ⟨0, _⟩ => rfl | ⟨1, _⟩ => rfl,
    show idx_main_v63 (ix1 b) (1 : Fin 2) = ix2 (1 : Fin 2) b from
      funext fun a => by match a with | ⟨0, _⟩ => rfl | ⟨1, _⟩ => rfl,
    sw_sdr, sw_sdr]
  rfl

end Swapped

/-! ## The rows' scores and the loss -/

section Loss
variable (x0 : (⟨S2x64x256000, .f32⟩ : BufTy).Contents (Elt Ideal)) (x1 x2 : (⟨S64x256000, .f32⟩ : BufTy).Contents (Elt Ideal))

/-- A row's score: the larger of the two pairings' mean ratios, over the four sequences of the row. -/
theorem row_score (b : Fin 64) :
    val_main_v66 (F := Ideal) x0 x1 x2 (ix1 b)
      = Cert.Spec.rowR (fun l : Fin 256000 => x0 (ix3 (0 : Fin 2) b l)) (fun l : Fin 256000 => x0 (ix3 (1 : Fin 2) b l))
          (fun l : Fin 256000 => x1 (ix2 b l)) (fun l : Fin 256000 => x2 (ix2 b l)) := by
  have t0 : (fun l : Fin 256000 => val_main_v2 (F := Ideal) x1 x2 (ix3 (0 : Fin 2) b l)) = fun l => x1 (ix2 b l) :=
    funext fun l => stack_zero x1 x2 b l
  have t1 : (fun l : Fin 256000 => val_main_v2 (F := Ideal) x1 x2 (ix3 (1 : Fin 2) b l)) = fun l => x2 (ix2 b l) :=
    funext fun l => stack_one x1 x2 b l
  have p0 : (fun l : Fin 256000 => val_main_v3 (F := Ideal) x0 (ix3 (0 : Fin 2) b l)) = fun l => x0 (ix3 (1 : Fin 2) b l) :=
    funext fun l => swap_zero x0 b l
  have p1 : (fun l : Fin 256000 => val_main_v3 (F := Ideal) x0 (ix3 (1 : Fin 2) b l)) = fun l => x0 (ix3 (0 : Fin 2) b l) :=
    funext fun l => swap_one x0 b l
  rw [val_main_v66_apply, st_score, sw_score, t0, t1, p0, p1]
  rfl

/-- The rows' index set is the range of the row number. -/
def rowEquiv : Fin 64 ≃ S64.Idx where
  toFun b := ix1 b
  invFun j := j 0
  left_inv _ := rfl
  right_inv j := (eq_ix1 j).symm

end Loss

/-- The reference's result: minus the sum of the 64 rows' scores, over 64. -/
theorem ref_value (x0 : (⟨S2x64x256000, .f32⟩ : BufTy).Contents (Elt Ideal)) (x1 x2 : (⟨S64x256000, .f32⟩ : BufTy).Contents (Elt Ideal)) :
    Cert.ReferenceIdeal.Read.val_main_v69 (F := Ideal) x0 x1 x2
      = fun _ => Cert.Spec.loss (fun b : Fin 64 => Cert.Spec.rowR
          (fun l : Fin 256000 => x0 (ix3 (0 : Fin 2) b l)) (fun l : Fin 256000 => x0 (ix3 (1 : Fin 2) b l))
          (fun l : Fin 256000 => x1 (ix2 b l)) (fun l : Fin 256000 => x2 (ix2 b l))) := by
  funext i
  have hsum : ∑ j : S64.Idx, val_main_v66 (F := Ideal) x0 x1 x2 j
      = ∑ b : Fin 64, Cert.Spec.rowR (fun l : Fin 256000 => x0 (ix3 (0 : Fin 2) b l)) (fun l : Fin 256000 => x0 (ix3 (1 : Fin 2) b l))
          (fun l : Fin 256000 => x1 (ix2 b l)) (fun l : Fin 256000 => x2 (ix2 b l)) :=
    (Equiv.sum_comp rowEquiv (val_main_v66 (F := Ideal) x0 x1 x2)).symm.trans
      (Finset.sum_congr rfl fun b _ => row_score x0 x1 x2 b)
  rw [val_main_v69_apply, val_main_v68_apply, val_main_v67_apply, hsum]
  simp only [val_main_cst_16_apply, val_main_cst_17_apply, Ideal.ofBits_def, Ideal.hostDivf_def, Ideal.hostNegf_def, Ideal.negf_def]
  rfl

end Cert.ReferenceIdeal.RefValue

end
-- ==== Proof.Algebra.lean ====
/-
  The algebra of the loss on the extended reals.

  Every sequence entry is a real number, so every sum of products is a real number; the literals are the reals
  0, 2, 1/2 and a positive ε.  With ⟨t,t⟩ ≥ 0 the divisor ⟨t,t⟩ + ε is a positive real, so the scale
  α = (⟨p,t⟩ + ε) / (⟨t,t⟩ + ε) is a real number, and in ℝ
      ∑ (α t)² = α² ∑ t²,      ∑ (p − α t)² = ∑ p² − 2α ∑ p t + α² ∑ t².
  Hence the reference's ratio (from the sequences) and the kernel's ratio (from the three sums) have the same
  numerator and the same denominator; the logarithm and the outer factors are applied to equal arguments and are
  never opened.  A mean "sum started at zero, divided by two" is the product with one half.
-/
import proofs.«105792_j65670049956214_1_alg».proof.Proof.Spec
import Mathlib.Data.EReal.Operations
import Mathlib.Algebra.BigOperators.Ring.Finset
import Mathlib.Tactic.NormNum
import Mathlib.Tactic.Ring
import Mathlib.Tactic.Positivity

noncomputable section

namespace Cert.Spec

open Idealize.ShloMosaic

/-! ### The literals as real numbers -/

/-- The all-zero word denotes `0`. -/
theorem zero_eq : zero = 0 := by
  simp [zero, Ideal.ofBits, Ideal.ieee]

/-- Exponent field 128, significand 0: `2²³ · 2^(128 − 127 − 23) = 2`. -/
theorem two_eq : two = ((2 : ℝ) : EReal) := by
  simp [two, Ideal.ofBits, Ideal.ieee, -EReal.coe_mul]; norm_num

/-- Exponent field 126, significand 0: `2²³ · 2^(126 − 127 − 23) = 1/2`. -/
theorem half_eq : half = ((1 / 2 : ℝ) : EReal) := by
  simp [half, Ideal.ofBits, Ideal.ieee, -EReal.coe_mul]; norm_num

/-- Exponent field 104, significand 0: `2²³ · 2^(104 − 127 − 23) = 2⁻²³`, a positive real. -/
theorem eps_eq : ∃ e : ℝ, 0 < e ∧ eps = (e : EReal) := by
  refine ⟨(2 : ℝ) ^ (-23 : ℤ), by positivity, ?_⟩
  simp [eps, Ideal.ofBits, Ideal.ieee, -EReal.coe_mul]; norm_num

/-! ### Finite sums of reals are real -/

/-- The inclusion ℝ → EReal is additive, so it commutes with a finite sum (induction on the index set). -/
theorem coe_sum {ι : Type} (s : Finset ι) (f : ι → ℝ) :
    ∑ l ∈ s, (f l : EReal) = ((∑ l ∈ s, f l : ℝ) : EReal) := by
  classical
  refine Finset.induction_on s (by simp) ?_
  intro a s ha ih
  rw [Finset.sum_insert ha, Finset.sum_insert ha, ih, EReal.coe_add]

/-! ### The mean of two -/

/-- `(0 + (a + b)) / 2 = (a + b) · ½`: the divisor is the nonzero real 2, also when `a + b` is infinite. -/
theorem mean_eq (a b : EReal) : Ideal.div (zero + (a + b)) two = (a + b) * half := by
  rw [zero_eq, zero_add, two_eq, half_eq]
  exact Ideal.div_coe (by norm_num) _

/-! ### One ratio -/

/-- The reference's ratio from the sequences is the kernel's ratio from the three sums. -/
theorem sdr_eq {ι : Type} [Fintype ι] (p t : ι → ℝ) :
    sdrR (fun l => (p l : EReal)) (fun l => (t l : EReal))
      = sdrK (∑ l, (p l : EReal) * (p l : EReal)) (∑ l, (p l : EReal) * (t l : EReal))
          (∑ l, (t l : EReal) * (t l : EReal)) := by
  obtain ⟨e, he, heps⟩ := eps_eq
  -- the three sums are the reals ⟨p,p⟩, ⟨p,t⟩, ⟨t,t⟩
  have hPP : ∑ l, (p l : EReal) * (p l : EReal) = ((∑ l, p l * p l : ℝ) : EReal) := by
    rw [← coe_sum]; simp only [EReal.coe_mul]
  have hPT : ∑ l, (p l : EReal) * (t l : EReal) = ((∑ l, p l * t l : ℝ) : EReal) := by
    rw [← coe_sum]; simp only [EReal.coe_mul]
  have hTT : ∑ l, (t l : EReal) * (t l : EReal) = ((∑ l, t l * t l : ℝ) : EReal) := by
    rw [← coe_sum]; simp only [EReal.coe_mul]
  -- ⟨t,t⟩ + ε > 0
  have hTTpos : (∑ l, t l * t l) + e ≠ 0 := by
    have : 0 ≤ ∑ l, t l * t l := Finset.sum_nonneg (fun l _ => mul_self_nonneg (t l))
    exact ne_of_gt (by linarith)
  -- so the scale is the real (⟨p,t⟩ + ε) · (⟨t,t⟩ + ε)⁻¹, named α from here on
  have hα : Ideal.div (((∑ l, p l * t l : ℝ) : EReal) + (e : EReal)) (((∑ l, t l * t l : ℝ) : EReal) + (e : EReal))
      = (((∑ l, p l * t l) + e) * (1 / ((∑ l, t l * t l) + e)) : ℝ) := by
    rw [← EReal.coe_add, ← EReal.coe_add, Ideal.div_coe hTTpos, ← EReal.coe_mul]
  generalize hαdef : ((∑ l, p l * t l) + e) * (1 / ((∑ l, t l * t l) + e)) = α at hα
  have hαR : alphaR (fun l => (p l : EReal)) (fun l => (t l : EReal)) = (α : EReal) := by
    simp only [alphaR]
    rw [zero_eq, zero_add, zero_add, hPT, hTT, heps, hα]
  -- ∑ (α t)² = α² ∑ t²
  have hN : ∑ l, ((α : EReal) * (t l : EReal)) * ((α : EReal) * (t l : EReal))
      = ((α * α * ∑ l, t l * t l : ℝ) : EReal) := by
    simp only [← EReal.coe_mul]
    rw [coe_sum, Finset.mul_sum]
    exact congrArg _ (Finset.sum_congr rfl (fun l _ => by ring))
  -- ∑ (p − α t)² = ∑ p² − 2α ∑ p t + α² ∑ t²
  have hD : ∑ l, ((p l : EReal) - (α : EReal) * (t l : EReal)) * ((p l : EReal) - (α : EReal) * (t l : EReal))
      = (((∑ l, p l * p l) - 2 * α * (∑ l, p l * t l) + α * α * ∑ l, t l * t l : ℝ) : EReal) := by
    simp only [← EReal.coe_mul, ← EReal.coe_sub]
    rw [coe_sum, Finset.mul_sum, Finset.mul_sum, ← Finset.sum_sub_distrib, ← Finset.sum_add_distrib]
    exact congrArg _ (Finset.sum_congr rfl (fun l _ => by ring))
  -- both sides now divide the same two reals
  simp only [sdrR, sdrK, hαR]
  rw [hN, hD, hPP, hPT, hTT, heps, hα, zero_eq, zero_add, zero_add, two_eq]
  simp only [← EReal.coe_mul, ← EReal.coe_sub, ← EReal.coe_add]

/-! ### One row -/

/-- A row's score: each of the four ratios by `sdr_eq`, each of the two means by `mean_eq`; the eight sums are
    read off `rowSums` at their positions 0..7. -/
theorem row_eq {ι : Type} [Fintype ι] (p0 p1 t1 t2 : ι → ℝ) :
    rowR (fun l => (p0 l : EReal)) (fun l => (p1 l : EReal)) (fun l => (t1 l : EReal)) (fun l => (t2 l : EReal))
      = rowK (rowSums (fun l => (p0 l : EReal)) (fun l => (p1 l : EReal)) (fun l => (t1 l : EReal))
          (fun l => (t2 l : EReal))) := by
  unfold rowR rowK
  rw [mean_eq, mean_eq, sdr_eq, sdr_eq, sdr_eq, sdr_eq]
  rfl

end Cert.Spec

end
-- ==== Proof.Finite.lean ====
import proofs.«105792_j65670049956214_1_alg».proof.Pre_finite_inputs
import proofs.«105792_j65670049956214_1_alg».proof.Proof.Gen.Pre_finite_inputs
import Idealize.ShloMosaic.PureOps.Ideal
import Idealize.ShloMosaic.Lib.ReduceAll
import Idealize.ShloMosaic.Lib.ValueIdx

/-!
# From the precondition to "every input entry is a real number"

The precondition is the conjunction of three statements `all (|a| < +∞)`, one per input array.
At the ideal instance an entry is an extended real, its absolute value is `max x (-x)`, and the
word `0x7F800000` denotes `⊤`.  An extended real with `max x (-x) < ⊤` is neither `⊤` (then
`max x (-x) = ⊤`) nor `⊥` (then `-x = ⊤`), so it is the image of a real number.
-/

namespace Cert.Finite

open Idealize.ShloMosaic

/-- An extended real whose absolute value `max x (-x)` lies strictly below `⊤` is a real number:
at `⊥` the negation is `⊤`, and at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision word `0x7F800000` denotes `+∞`. -/
theorem ofBits_inf : Ideal.ofBits .f32 0x7F800000#32 = (⊤ : EReal) := by
  simp [Ideal.ofBits, Ideal.ieee]

/-- The element fact: if the ordered comparison `|x| < +∞` answers `1`, then `x` is a real number. -/
theorem real_of_cmp (x : EReal)
    (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- The result of a reduction over all axes has exactly one index. -/
instance : Subsingleton Cert.Pre_finite_inputs.S_.Idx := ⟨fun a b => funext fun d => d.elim0⟩

/-- Under the precondition every entry of each of the three inputs is a real number. -/
theorem finite_of_pre [Cert.Pre_finite_inputs.Facts]
    (a0 : FVec Ideal Cert.Pre_finite_inputs.S2x64x256000 .f32)
    (a1 a2 : FVec Ideal Cert.Pre_finite_inputs.S64x256000 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧
      (∀ i, ∃ r : ℝ, a2 i = (r : EReal)) := by
  -- read the one entry of the rank-0 result
  have h0 := congrFun h ValueIdx.ix0
  dsimp only [Cert.Pre_finite_inputs.fn] at h0
  -- the outer `and` is 1: both of its operands are; likewise the inner one
  obtain ⟨h01, h2⟩ := IntOp.andi_eq_one.1 h0
  obtain ⟨h0', h1⟩ := IntOp.andi_eq_one.1 h01
  refine ⟨fun i => ?_, fun i => ?_, fun i => ?_⟩
  · exact real_of_cmp (a0 i) (Host.reduce_andi_all _ _ _ _ _ h0' i)
  · exact real_of_cmp (a1 i) (Host.reduce_andi_all _ _ _ _ _ h1 i)
  · exact real_of_cmp (a2 i) (Host.reduce_andi_all _ _ _ _ _ h2 i)

end Cert.Finite
-- ==== Proof.lean ====
/-
  The certificate's claims. Both programs compute, from two predicted and two target signals of 64 rows by 256000
  samples, the permutation-invariant scale-invariant signal-to-distortion loss: per row and per pairing of a prediction p
  with a target t, 10·log₁₀((‖αt‖² + ε)/(‖p − αt‖² + ε)) with α = (⟨p,t⟩ + ε)/(‖t‖² + ε); the better of the two pairings'
  mean ratios per row; minus the mean over the rows. The kernel reduces each row to the eight sums ⟨p,p⟩, ⟨t,t⟩, ⟨p,t⟩ it
  needs, block by block in a carried accumulator, and evaluates ‖αt‖² = α²‖t‖² and ‖p − αt‖² = ‖p‖² − 2α⟨p,t⟩ + α²‖t‖² from
  them; the reference evaluates the ratios from the sequences. On finite inputs every entry is a real number, α is a
  real (its denominator is positive), the expansions hold in ℝ, and the two programs' results are the same extended
  real. The frames: each program terminates without a fault and leaves its three arguments as launched.
-/
import proofs.«105792_j65670049956214_1_alg».proof.Defs
import proofs.«105792_j65670049956214_1_alg».proof.Proof.Gen.Kernel
import proofs.«105792_j65670049956214_1_alg».proof.Proof.Gen.Kernel.Skeleton
import proofs.«105792_j65670049956214_1_alg».proof.Proof.Gen.Kernel.Launch
import proofs.«105792_j65670049956214_1_alg».proof.Proof.Gen.Kernel.Points
import proofs.«105792_j65670049956214_1_alg».proof.Proof.Gen.KernelIdeal
import proofs.«105792_j65670049956214_1_alg».proof.Proof.Gen.KernelIdeal.Skeleton
import proofs.«105792_j65670049956214_1_alg».proof.Proof.Gen.KernelIdeal.Launch
import proofs.«105792_j65670049956214_1_alg».proof.Proof.Gen.KernelIdeal.Points
import proofs.«105792_j65670049956214_1_alg».proof.Proof.Gen.ReferenceIdeal
import proofs.«105792_j65670049956214_1_alg».proof.Proof.Gen.Pre_finite_inputs
import proofs.«105792_j65670049956214_1_alg».proof.Proof.Gen.ReferenceIdeal.Run
import proofs.«105792_j65670049956214_1_alg».proof.Proof.Gen.ReferenceIdeal.Read
import proofs.«105792_j65670049956214_1_alg».proof.Proof.KernelFrame
import proofs.«105792_j65670049956214_1_alg».proof.Proof.KernelResult
import proofs.«105792_j65670049956214_1_alg».proof.Proof.RefValue
import proofs.«105792_j65670049956214_1_alg».proof.Proof.Algebra
import proofs.«105792_j65670049956214_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments unchanged. -/
theorem frame_k : Cert.frame_Kernel := fun m ρ _ => Cert.Kernel.Hand.frame m ρ
/-- So does the idealized kernel program. -/
theorem frame_ki : Cert.frame_KernelIdeal := fun m ρ _ => Cert.KernelIdeal.Hand.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- Both programs end with the same loss: the kernel's from each row's eight sums, the reference's from the rows
    themselves; the inputs being finite, every row is a sequence of reals, on which the two forms of a row's score agree
    (the expansion of ‖α t‖² and ‖p − α t‖² into the three sums, and a mean of two as a half-sum). -/
theorem algebraic : Cert.algebraic_KernelIdeal_ReferenceIdeal := by
  intro m ρ m' ρ' hpre hagree
  refine ⟨fun c => fun _ => Cert.KernelIdeal.Hand.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2, Cert.ReferenceIdeal.RefValue.ref_value]
  obtain ⟨f0, f1, f2⟩ := Cert.Finite.finite_of_pre _ _ _ (hpre c)
  choose r0 hr0 using f0
  choose r1 hr1 using f1
  choose r2 hr2 using f2
  funext _
  unfold Cert.KernelIdeal.Hand.lossK
  refine congrArg Cert.Spec.loss (funext fun b => ?_)
  simp only [hr0, hr1, hr2]
  exact Cert.Spec.row_eq (fun l => r0 (ix3 (0 : Fin 2) b l)) (fun l => r0 (ix3 (1 : Fin 2) b l)) (fun l => r1 (ix2 b l)) (fun l => r2 (ix2 b l))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
